-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_phase_div" .f32 0x40060A92#32 ((33554432 / 16021061 : ℝ) : EReal)
  ∧ IdealRules.named_const.Statement Cert.KernelIdeal.κ "inv_phase_div" .f32 0x40060A92#32 ((33554432 / 16021061 : ℝ) : EReal)
  ∧ IdealRules.named_const.Statement Cert.KernelIdeal.κ "inv_phase_div" .f32 0x40060A92#32 ((33554432 / 16021061 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v131)) (v1 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_v133) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_v179) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S1000000 : Shape := ⟨1, ![1000000]⟩
abbrev S500x64 : Shape := ⟨2, ![500, 64]⟩
abbrev S128x128 : Shape := ⟨2, ![128, 128]⟩
abbrev S64x64 : Shape := ⟨2, ![64, 64]⟩
abbrev S1x64 : Shape := ⟨2, ![1, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500x64 : S_.BroadcastsInDim S500x64 (![] : Fin 0 → Fin S500x64.rank)
  reducesTo_S500x64_S_d0_1 : S500x64.ReducesTo [0, 1] S_
  bcast_S_S128x128 : S_.BroadcastsInDim S128x128 (![] : Fin 0 → Fin S128x128.rank)
  reducesTo_S128x128_S_d0_1 : S128x128.ReducesTo [0, 1] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg6 : FVec F S128x128 .f32) (main_arg7 : FVec F S64x64 .f32) (main_arg8 : FVec F S1x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S1x64 .f32 := Host.absf main_arg8
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S100000x128 .f32) (main_arg1 : IVec S2x1000000 32) (main_arg2 : IVec S1000000 32) (main_arg3 : FVec F S500x64 .f32) (main_arg4 : FVec F S128x128 .f32) (main_arg5 : FVec F S128x128 .f32) (main_arg6 : FVec F S128x128 .f32) (main_arg7 : FVec F S64x64 .f32) (main_arg8 : FVec F S1x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500x64 .f32 := Host.absf main_arg3
  let main_cst_0 : FVec F S_ .f32 := constant S_ .f32 0x7F800000#32
  let main_v5 : FVec F S500x64 .f32 := broadcastInDim S500x64 ![] bcast_S_S500x64 main_cst_0
  let main_v6 : IVec S500x64 1 := cmpf .olt main_v4 main_v5
  let main_c_1 : IVec S_ 1 := constantI S_ 1 1#1
  let main_v7 : IVec S_ 1 := (fun x v => Host.reduce IntOp.andi x v reducesTo_S500x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1000000 : Shape := ⟨2, ![2, 1000000]⟩
abbrev S1000000 : Shape := ⟨1, ![1000000]⟩
abbrev S500x64 : Shape := ⟨2, ![500, 64]⟩
abbrev S128x128 : Shape := ⟨2, ![128, 128]⟩
abbrev S64x64 : Shape := ⟨2, ![64, 64]⟩
abbrev S1x64 : Shape := ⟨2, ![1, 64]⟩
abbrev S501x64 : Shape := ⟨2, ![501, 64]⟩
abbrev S2x500000 : Shape := ⟨2, ![2, 500000]⟩
abbrev S500000 : Shape := ⟨1, ![500000]⟩
abbrev S1x500000 : Shape := ⟨2, ![1, 500000]⟩
abbrev S_ : Shape := ⟨0, ![]⟩
abbrev S100000 : Shape := ⟨1, ![100000]⟩
abbrev S500000x1 : Shape := ⟨2, ![500000, 1]⟩
abbrev S500000x128 : Shape := ⟨2, ![500000, 128]⟩
abbrev S500000x64 : Shape := ⟨2, ![500000, 64]⟩
abbrev S5000x128 : Shape := ⟨2, ![5000, 128]⟩
abbrev S5000x64 : Shape := ⟨2, ![5000, 64]⟩
abbrev S4000x128 : Shape := ⟨2, ![4000, 128]⟩
abbrev S4000x64 : Shape := ⟨2, ![4000, 64]⟩

abbrev nBuf : Space → Nat
  | .hbm => 183
  | .vmem => 24
  | .smem => 0
  | _ => 0

abbrev hbmTy0_0 (i : Nat) : BufTy := match i % 128 with
  | 0 => ⟨S100000x128, .f32⟩
  | 1 => ⟨S2x1000000, .i32⟩
  | 2 => ⟨S1000000, .i32⟩
  | 3 => ⟨S500x64, .f32⟩
  | 4 => ⟨S128x128, .f32⟩
  | 5 => ⟨S128x128, .f32⟩
  | 6 => ⟨S128x128, .f32⟩
  | 7 => ⟨S64x64, .f32⟩
  | 8 => ⟨S1x64, .f32⟩
  | 9 => ⟨S501x64, .f32⟩
  | 10 => ⟨S2x500000, .i32⟩
  | 11 => ⟨S2x500000, .i32⟩
  | 12 => ⟨S500000, .i32⟩
  | 13 => ⟨S500000, .i32⟩
  | 14 => ⟨S1x500000, .i32⟩
  | 15 => ⟨S500000, .i32⟩
  | 16 => ⟨S1x500000, .i32⟩
  | 17 => ⟨S500000, .i32⟩
  | 18 => ⟨S_, .f32⟩
  | 19 => ⟨S100000, .f32⟩
  | 20 => ⟨S_, .i32⟩
  | 21 => ⟨S500000, .i32⟩
  | 22 => ⟨S500000, .i1⟩
  | 23 => ⟨S_, .i32⟩
  | 24 => ⟨S500000, .i32⟩
  | 25 => ⟨S500000, .i32⟩
  | 26 => ⟨S500000, .i32⟩
  | 27 => ⟨S500000x1, .i32⟩
  | 28 => ⟨S_, .f32⟩
  | 29 => ⟨S500000, .f32⟩
  | 30 => ⟨S100000, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S500000, .i32⟩
  | 43 => ⟨S500000, .i1⟩
  | 44 => ⟨S_, .i32⟩
  | 45 => ⟨S500000, .i32⟩
  | 46 => ⟨S500000, .i32⟩
  | 47 => ⟨S500000, .i32⟩
  | 48 => ⟨S500000x1, .i32⟩
  | 49 => ⟨S500000, .f32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000, .f32⟩
  | 59 => ⟨S500000, .f32⟩
  | 60 => ⟨S1x500000, .i32⟩
  | 61 => ⟨S500000, .i32⟩
  | 62 => ⟨S1x500000, .i32⟩
  | 63 => ⟨S500000, .i32⟩
  | 64 => ⟨S_, .f32⟩
  | 65 => ⟨S100000, .f32⟩
  | 66 => ⟨S_, .i32⟩
  | 67 => ⟨S500000, .i32⟩
  | 68 => ⟨S500000, .i1⟩
  | 69 => ⟨S_, .i32⟩
  | 70 => ⟨S500000, .i32⟩
  | 71 => ⟨S500000, .i32⟩
  | 72 => ⟨S500000, .i32⟩
  | 73 => ⟨S500000x1, .i32⟩
  | 74 => ⟨S_, .f32⟩
  | 75 => ⟨S500000, .f32⟩
  | 76 => ⟨S100000, .f32⟩
  | 77 => ⟨S_, .f32⟩
  | 78 => ⟨S100000, .f32⟩
  | 79 => ⟨S100000, .i1⟩
  | 80 => ⟨S_, .f32⟩
  | 81 => ⟨S100000, .f32⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S500000, .i32⟩
  | 89 => ⟨S500000, .i1⟩
  | 90 => ⟨S_, .i32⟩
  | 91 => ⟨S500000, .i32⟩
  | 92 => ⟨S500000, .i32⟩
  | 93 => ⟨S500000, .i32⟩
  | 94 => ⟨S500000x1, .i32⟩
  | 95 => ⟨S500000, .f32⟩
  | 96 => ⟨S_, .i32⟩
  | 97 => ⟨S500000, .i32⟩
  | 98 => ⟨S500000, .i1⟩
  | 99 => ⟨S_, .i32⟩
  | 100 => ⟨S500000, .i32⟩
  | 101 => ⟨S500000, .i32⟩
  | 102 => ⟨S500000, .i32⟩
  | 103 => ⟨S500000x1, .i32⟩
  | 104 => ⟨S500000, .f32⟩
  | 105 => ⟨S500000, .f32⟩
  | 106 => ⟨S1x500000, .i32⟩
  | 107 => ⟨S500000, .i32⟩
  | 108 => ⟨S_, .i32⟩
  | 109 => ⟨S500000, .i32⟩
  | 110 => ⟨S500000, .i1⟩
  | 111 => ⟨S_, .i32⟩
  | 112 => ⟨S500000, .i32⟩
  | 113 => ⟨S500000, .i32⟩
  | 114 => ⟨S500000, .i32⟩
  | 115 => ⟨S500000x1, .i32⟩
  | 116 => ⟨S500000x128, .f32⟩
  | 117 => ⟨S500000x1, .f32⟩
  | 118 => ⟨S500000x128, .f32⟩
  | 119 => ⟨S500000x128, .f32⟩
  | 120 => ⟨S1x500000, .i32⟩
  | 121 => ⟨S500000, .i32⟩
  | 122 => ⟨S_, .i32⟩
  | 123 => ⟨S500000, .i32⟩
  | 124 => ⟨S500000, .i1⟩
  | 125 => ⟨S_, .i32⟩
  | 126 => ⟨S500000, .i32⟩
  | 127 => ⟨S500000, .i32⟩
  | _ => ⟨S100000x128, .f32⟩

abbrev hbmTy0_1 (i : Nat) : BufTy := match i % 128 with
  | 0 => ⟨S500000, .i32⟩
  | 1 => ⟨S500000x1, .i32⟩
  | 2 => ⟨S500000x128, .f32⟩
  | 3 => ⟨S500000x1, .f32⟩
  | 4 => ⟨S500000x128, .f32⟩
  | 5 => ⟨S500000x128, .f32⟩
  | 6 => ⟨S_, .i32⟩
  | 7 => ⟨S500000, .i32⟩
  | 8 => ⟨S500000, .i1⟩
  | 9 => ⟨S_, .i32⟩
  | 10 => ⟨S500000, .i32⟩
  | 11 => ⟨S500000, .i32⟩
  | 12 => ⟨S500000, .i32⟩
  | 13 => ⟨S500000x1, .i32⟩
  | 14 => ⟨S500000x64, .f32⟩
  | 15 => ⟨S_, .i32⟩
  | 16 => ⟨S500000, .i32⟩
  | 17 => ⟨S500000, .i1⟩
  | 18 => ⟨S_, .i32⟩
  | 19 => ⟨S500000, .i32⟩
  | 20 => ⟨S500000, .i32⟩
  | 21 => ⟨S500000, .i32⟩
  | 22 => ⟨S500000x1, .i32⟩
  | 23 => ⟨S500000x64, .f32⟩
  | 24 => ⟨S500000x128, .f32⟩
  | 25 => ⟨S500000x128, .f32⟩
  | 26 => ⟨S_, .f32⟩
  | 27 => ⟨S100000x128, .f32⟩
  | 28 => ⟨S1x500000, .i32⟩
  | 29 => ⟨S500000, .i32⟩
  | 30 => ⟨S_, .i32⟩
  | 31 => ⟨S500000, .i32⟩
  | 32 => ⟨S500000, .i1⟩
  | 33 => ⟨S_, .i32⟩
  | 34 => ⟨S500000, .i32⟩
  | 35 => ⟨S500000, .i32⟩
  | 36 => ⟨S500000, .i32⟩
  | 37 => ⟨S500000x1, .i32⟩
  | 38 => ⟨S100000x128, .f32⟩
  | 39 => ⟨S_, .f32⟩
  | 40 => ⟨S100000x128, .f32⟩
  | 41 => ⟨S1x500000, .i32⟩
  | 42 => ⟨S500000, .i32⟩
  | 43 => ⟨S_, .i32⟩
  | 44 => ⟨S500000, .i32⟩
  | 45 => ⟨S500000, .i1⟩
  | 46 => ⟨S_, .i32⟩
  | 47 => ⟨S500000, .i32⟩
  | 48 => ⟨S500000, .i32⟩
  | 49 => ⟨S500000, .i32⟩
  | 50 => ⟨S500000x1, .i32⟩
  | 51 => ⟨S100000x128, .f32⟩
  | 52 => ⟨S100000x128, .f32⟩
  | 53 => ⟨S501x64, .f32⟩
  | 54 => ⟨S500x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x64, .f32⟩
  | .local _ .vmem, ⟨3, _⟩ => ⟨S5000x64, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x64, .f32⟩
  | .local _ .vmem, ⟨10, _⟩ => ⟨S5000x64, .f32⟩
  | .local _ .vmem, ⟨11, _⟩ => ⟨S128x128, .f32⟩
  | .local _ .vmem, ⟨12, _⟩ => ⟨S5000x128, .f32⟩
  | .local _ .vmem, ⟨13, _⟩ => ⟨S5000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S1x64, .f32⟩
  | .local _ .vmem, ⟨21, _⟩ => ⟨S128x128, .f32⟩
  | .local _ .vmem, ⟨22, _⟩ => ⟨S4000x128, .f32⟩
  | .local _ .vmem, ⟨23, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_c_10 : Ref sig .tc := ⟨.hbm, 66, rfl⟩
abbrev main_v43 : Ref sig .tc := ⟨.hbm, 67, rfl⟩
abbrev main_v44 : Ref sig .tc := ⟨.hbm, 68, rfl⟩
abbrev main_c_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_12 : Ref sig .tc := ⟨.hbm, 74, rfl⟩
abbrev main_v49 : Ref sig .tc := ⟨.hbm, 75, rfl⟩
abbrev main_v50 : Ref sig .tc := ⟨.hbm, 76, rfl⟩
abbrev main_cst_13 : Ref sig .tc := ⟨.hbm, 77, rfl⟩
abbrev main_v51 : Ref sig .tc := ⟨.hbm, 78, rfl⟩
abbrev main_v52 : Ref sig .tc := ⟨.hbm, 79, rfl⟩
abbrev main_cst_14 : Ref sig .tc := ⟨.hbm, 80, rfl⟩
abbrev main_v53 : Ref sig .tc := ⟨.hbm, 81, rfl⟩
abbrev main_v54 : Ref sig .tc := ⟨.hbm, 82, rfl⟩
abbrev main_cst_15 : Ref sig .tc := ⟨.hbm, 83, rfl⟩
abbrev main_call1_v0 : Ref sig .tc := ⟨.hbm, 84, rfl⟩
abbrev main_call1_v1 : Ref sig .tc := ⟨.hbm, 85, rfl⟩
abbrev main_v55 : Ref sig .tc := ⟨.hbm, 86, rfl⟩
abbrev main_c_16 : Ref sig .tc := ⟨.hbm, 87, rfl⟩
abbrev main_v56 : Ref sig .tc := ⟨.hbm, 88, rfl⟩
abbrev main_v57 : Ref sig .tc := ⟨.hbm, 89, rfl⟩
abbrev main_c_17 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_c_18 : Ref sig .tc := ⟨.hbm, 96, rfl⟩
abbrev main_v63 : Ref sig .tc := ⟨.hbm, 97, rfl⟩
abbrev main_v64 : Ref sig .tc := ⟨.hbm, 98, rfl⟩
abbrev main_c_19 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_c_20 : Ref sig .tc := ⟨.hbm, 108, rfl⟩
abbrev main_v73 : Ref sig .tc := ⟨.hbm, 109, rfl⟩
abbrev main_v74 : Ref sig .tc := ⟨.hbm, 110, rfl⟩
abbrev main_c_21 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_c_22 : Ref sig .tc := ⟨.hbm, 122, rfl⟩
abbrev main_v85 : Ref sig .tc := ⟨.hbm, 123, rfl⟩
abbrev main_v86 : Ref sig .tc := ⟨.hbm, 124, rfl⟩
abbrev main_c_23 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_c_24 : Ref sig .tc := ⟨.hbm, 134, rfl⟩
abbrev main_v95 : Ref sig .tc := ⟨.hbm, 135, rfl⟩
abbrev main_v96 : Ref sig .tc := ⟨.hbm, 136, rfl⟩
abbrev main_c_25 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_c_26 : Ref sig .tc := ⟨.hbm, 143, rfl⟩
abbrev main_v102 : Ref sig .tc := ⟨.hbm, 144, rfl⟩
abbrev main_v103 : Ref sig .tc := ⟨.hbm, 145, rfl⟩
abbrev main_c_27 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_28 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_c_29 : Ref sig .tc := ⟨.hbm, 158, rfl⟩
abbrev main_v114 : Ref sig .tc := ⟨.hbm, 159, rfl⟩
abbrev main_v115 : Ref sig .tc := ⟨.hbm, 160, rfl⟩
abbrev main_c_30 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_cst_31 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_c_32 : Ref sig .tc := ⟨.hbm, 171, rfl⟩
abbrev main_v124 : Ref sig .tc := ⟨.hbm, 172, rfl⟩
abbrev main_v125 : Ref sig .tc := ⟨.hbm, 173, rfl⟩
abbrev main_c_33 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  concatenates_S500x64_S1x64_S501x64_d0 : Shape.Concatenates [S500x64, S1x64] S501x64 0
  slices_S2x1000000_S2x500000_0_0 : S2x1000000.Slices ![0, 0] S2x500000
  slices_S2x1000000_S2x500000_0_500000 : S2x1000000.Slices ![0, 500000] S2x500000
  slices_S1000000_S500000_0 : S1000000.Slices ![0] S500000
  slices_S1000000_S500000_500000 : S1000000.Slices ![500000] S500000
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S100000 : S_.BroadcastsInDim S100000 (![] : Fin 0 → Fin S100000.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  slices_S5000x128_o0_0_S5000x64 : S5000x128.Slices ![0, 0] S5000x64
  slices_S5000x128_o0_64_S5000x64 : S5000x128.Slices ![0, 64] S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  slices_S4000x128_o0_0_S4000x64 : S4000x128.Slices ![0, 0] S4000x64
  slices_S4000x128_o0_64_S4000x64 : S4000x128.Slices ![0, 64] S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  concatenates_S4000x64_S4000x64_S4000x128_d1 : Shape.Concatenates [S4000x64, S4000x64] S4000x128 1
  shapeCasts_S4000x128_S4000x128 : S4000x128.ShapeCasts S4000x128
  slices_S501x64_S500x64_0_0 : S501x64.Slices ![0, 0] S500x64
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  gather_S100000x128_S500000x1_S500000x128_1_0_n_n_0_1_1128_wf : GatherDims.WF S100000x128 S500000x1 S500000x128 [1] [0] [] [0] [] 1 ![1, 128]
  gather_S501x64_S500000x1_S500000x64_1_0_n_n_0_1_164_wf : GatherDims.WF S501x64 S500000x1 S500000x64 [1] [0] [] [0] [] 1 ![1, 64]
  dot_S5000x128_S128x128_S5000x128_1_0_0_1_n_n_wf : DotDims.WF S5000x128 S128x128 S5000x128 [1] [0] [0] [1] [] []
  scatter_S100000x128_S500000x1_S500000x128_1_0_0_1_wf : ScatterDims.WF S100000x128 S500000x1 S500000x128 [1] [0] [0] 1
  dot_S4000x128_S128x128_S4000x128_1_0_0_1_n_n_wf : DotDims.WF S4000x128 S128x128 S4000x128 [1] [0] [0] [1] [] []
  dot_S501x64_S64x64_S501x64_1_0_0_1_n_n_wf : DotDims.WF S501x64 S64x64 S501x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S500000x64.size a
  hwx0_1 : ∀ i : grid0.Coords, EltTy.bits .f32 = 32 ∨ (Rect.block (s := S500000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S500000x128.size a
  hwx0_3 : ∀ i : grid0.Coords, EltTy.bits .f32 = 32 ∨ (Rect.block (s := S500000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S500000x128.size a
  hwx1_0 : ∀ i : grid1.Coords, EltTy.bits .f32 = 32 ∨ (Rect.block (s := S500000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S500000x64.size a
  hwx1_1 : ∀ i : grid1.Coords, EltTy.bits .f32 = 32 ∨ (Rect.block (s := S500000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S500000x128.size a
  hwx1_3 : ∀ i : grid1.Coords, EltTy.bits .f32 = 32 ∨ (Rect.block (s := S500000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S501x64_S500000x1_S500000x64_1_0_n_n_0_1_164 : GatherDims S501x64 S500000x1 S500000x64 where
  offsetDims := [1]
  collapsedSliceDims := [0]
  operandBatchingDims := []
  startIndicesBatchingDims := []
  startIndexMap := [0]
  indexVectorDim := 1
  sliceSizes := ![1, 64]
  wf := gather_S501x64_S500000x1_S500000x64_1_0_n_n_0_1_164_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S501x64_S64x64_S501x64_1_0_0_1_n_n : DotDims S501x64 S64x64 S501x64 where
  lhsContracting := [1]
  rhsContracting := [0]
  lhsNonContracting := [0]
  rhsNonContracting := [1]
  lhsBatch := []
  rhsBatch := []
  wf := dot_S501x64_S64x64_S501x64_1_0_0_1_n_n_wf

abbrev win0_0 : Pipeline.Window sig grid0 :=
  Pipeline.Window.ofSpec (Memref.whole main_v82) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v101) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v109) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v94) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v108) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v110) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v120) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v130) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v131) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S1000000 : Shape := ⟨1, ![1000000]⟩
abbrev S500x64 : Shape := ⟨2, ![500, 64]⟩
abbrev S128x128 : Shape := ⟨2, ![128, 128]⟩
abbrev S64x64 : Shape := ⟨2, ![64, 64]⟩
abbrev S1x64 : Shape := ⟨2, ![1, 64]⟩
abbrev S501x64 : Shape := ⟨2, ![501, 64]⟩
abbrev S2x500000 : Shape := ⟨2, ![2, 500000]⟩
abbrev S500000 : Shape := ⟨1, ![500000]⟩
abbrev S1x500000 : Shape := ⟨2, ![1, 500000]⟩
abbrev S_ : Shape := ⟨0, ![]⟩
abbrev S100000 : Shape := ⟨1, ![100000]⟩
abbrev S500000x1 : Shape := ⟨2, ![500000, 1]⟩
abbrev S500000x128 : Shape := ⟨2, ![500000, 128]⟩
abbrev S500000x64 : Shape := ⟨2, ![500000, 64]⟩
abbrev S64 : Shape := ⟨1, ![64]⟩
abbrev S100000x64 : Shape := ⟨2, ![100000, 64]⟩

abbrev nBuf : Space → Nat
  | .hbm => 233
  | .vmem => 0
  | .smem => 0
  | _ => 0

abbrev hbmTy0_0 (i : Nat) : BufTy := match i % 128 with
  | 0 => ⟨S100000x128, .f32⟩
  | 1 => ⟨S2x1000000, .i32⟩
  | 2 => ⟨S1000000, .i32⟩
  | 3 => ⟨S500x64, .f32⟩
  | 4 => ⟨S128x128, .f32⟩
  | 5 => ⟨S128x128, .f32⟩
  | 6 => ⟨S128x128, .f32⟩
  | 7 => ⟨S64x64, .f32⟩
  | 8 => ⟨S1x64, .f32⟩
  | 9 => ⟨S501x64, .f32⟩
  | 10 => ⟨S2x500000, .i32⟩
  | 11 => ⟨S2x500000, .i32⟩
  | 12 => ⟨S500000, .i32⟩
  | 13 => ⟨S500000, .i32⟩
  | 14 => ⟨S1x500000, .i32⟩
  | 15 => ⟨S500000, .i32⟩
  | 16 => ⟨S1x500000, .i32⟩
  | 17 => ⟨S500000, .i32⟩
  | 18 => ⟨S_, .f32⟩
  | 19 => ⟨S100000, .f32⟩
  | 20 => ⟨S_, .i32⟩
  | 21 => ⟨S500000, .i32⟩
  | 22 => ⟨S500000, .i1⟩
  | 23 => ⟨S_, .i32⟩
  | 24 => ⟨S500000, .i32⟩
  | 25 => ⟨S500000, .i32⟩
  | 26 => ⟨S500000, .i32⟩
  | 27 => ⟨S500000x1, .i32⟩
  | 28 => ⟨S_, .f32⟩
  | 29 => ⟨S500000, .f32⟩
  | 30 => ⟨S100000, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S500000, .i32⟩
  | 43 => ⟨S500000, .i1⟩
  | 44 => ⟨S_, .i32⟩
  | 45 => ⟨S500000, .i32⟩
  | 46 => ⟨S500000, .i32⟩
  | 47 => ⟨S500000, .i32⟩
  | 48 => ⟨S500000x1, .i32⟩
  | 49 => ⟨S500000, .f32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000, .f32⟩
  | 59 => ⟨S500000, .f32⟩
  | 60 => ⟨S1x500000, .i32⟩
  | 61 => ⟨S500000, .i32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x128, .f32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S500000x1, .i32⟩
  | 79 => ⟨S500000x64, .f32⟩
  | 80 => ⟨S500000x64, .f32⟩
  | 81 => ⟨S500000x64, .f32⟩
  | 82 => ⟨S_, .f32⟩
  | 83 => ⟨S500000x64, .f32⟩
  | 84 => ⟨S500000x64, .f32⟩
  | 85 => ⟨S500000x64, .f32⟩
  | 86 => ⟨S500000x64, .f32⟩
  | 87 => ⟨S500000x64, .f32⟩
  | 88 => ⟨S500000x64, .f32⟩
  | 89 => ⟨S500000x64, .f32⟩
  | 90 => ⟨S500000x64, .f32⟩
  | 91 => ⟨S500000x64, .f32⟩
  | 92 => ⟨S500000x64, .f32⟩
  | 93 => ⟨S500000x128, .f32⟩
  | 94 => ⟨S500000x128, .f32⟩
  | 95 => ⟨S500000x1, .f32⟩
  | 96 => ⟨S500000x128, .f32⟩
  | 97 => ⟨S500000x128, .f32⟩
  | 98 => ⟨S_, .f32⟩
  | 99 => ⟨S100000x128, .f32⟩
  | 100 => ⟨S1x500000, .i32⟩
  | 101 => ⟨S500000, .i32⟩
  | 102 => ⟨S_, .i32⟩
  | 103 => ⟨S500000, .i32⟩
  | 104 => ⟨S500000, .i1⟩
  | 105 => ⟨S_, .i32⟩
  | 106 => ⟨S500000, .i32⟩
  | 107 => ⟨S500000, .i32⟩
  | 108 => ⟨S500000, .i32⟩
  | 109 => ⟨S500000x1, .i32⟩
  | 110 => ⟨S100000x128, .f32⟩
  | 111 => ⟨S1x500000, .i32⟩
  | 112 => ⟨S500000, .i32⟩
  | 113 => ⟨S1x500000, .i32⟩
  | 114 => ⟨S500000, .i32⟩
  | 115 => ⟨S_, .f32⟩
  | 116 => ⟨S100000, .f32⟩
  | 117 => ⟨S_, .i32⟩
  | 118 => ⟨S500000, .i32⟩
  | 119 => ⟨S500000, .i1⟩
  | 120 => ⟨S_, .i32⟩
  | 121 => ⟨S500000, .i32⟩
  | 122 => ⟨S500000, .i32⟩
  | 123 => ⟨S500000, .i32⟩
  | 124 => ⟨S500000x1, .i32⟩
  | 125 => ⟨S_, .f32⟩
  | 126 => ⟨S500000, .f32⟩
  | 127 => ⟨S100000, .f32⟩
  | _ => ⟨S100000x128, .f32⟩

abbrev hbmTy0_1 (i : Nat) : BufTy := match i % 128 with
  | 0 => ⟨S_, .f32⟩
  | 1 => ⟨S100000, .f32⟩
  | 2 => ⟨S100000, .i1⟩
  | 3 => ⟨S_, .f32⟩
  | 4 => ⟨S100000, .f32⟩
  | 5 => ⟨S100000, .f32⟩
  | 6 => ⟨S_, .f32⟩
  | 7 => ⟨S_, .f32⟩
  | 8 => ⟨S100000, .f32⟩
  | 9 => ⟨S100000, .f32⟩
  | 10 => ⟨S_, .i32⟩
  | 11 => ⟨S500000, .i32⟩
  | 12 => ⟨S500000, .i1⟩
  | 13 => ⟨S_, .i32⟩
  | 14 => ⟨S500000, .i32⟩
  | 15 => ⟨S500000, .i32⟩
  | 16 => ⟨S500000, .i32⟩
  | 17 => ⟨S500000x1, .i32⟩
  | 18 => ⟨S500000, .f32⟩
  | 19 => ⟨S_, .i32⟩
  | 20 => ⟨S500000, .i32⟩
  | 21 => ⟨S500000, .i1⟩
  | 22 => ⟨S_, .i32⟩
  | 23 => ⟨S500000, .i32⟩
  | 24 => ⟨S500000, .i32⟩
  | 25 => ⟨S500000, .i32⟩
  | 26 => ⟨S500000x1, .i32⟩
  | 27 => ⟨S500000, .f32⟩
  | 28 => ⟨S500000, .f32⟩
  | 29 => ⟨S1x500000, .i32⟩
  | 30 => ⟨S500000, .i32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x128, .f32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S500000x64, .f32⟩
  | 49 => ⟨S500000x64, .f32⟩
  | 50 => ⟨S500000x64, .f32⟩
  | 51 => ⟨S_, .f32⟩
  | 52 => ⟨S500000x64, .f32⟩
  | 53 => ⟨S500000x64, .f32⟩
  | 54 => ⟨S500000x64, .f32⟩
  | 55 => ⟨S500000x64, .f32⟩
  | 56 => ⟨S500000x64, .f32⟩
  | 57 => ⟨S500000x64, .f32⟩
  | 58 => ⟨S500000x64, .f32⟩
  | 59 => ⟨S500000x64, .f32⟩
  | 60 => ⟨S500000x64, .f32⟩
  | 61 => ⟨S500000x64, .f32⟩
  | 62 => ⟨S500000x128, .f32⟩
  | 63 => ⟨S500000x128, .f32⟩
  | 64 => ⟨S500000x1, .f32⟩
  | 65 => ⟨S500000x128, .f32⟩
  | 66 => ⟨S500000x128, .f32⟩
  | 67 => ⟨S_, .f32⟩
  | 68 => ⟨S100000x128, .f32⟩
  | 69 => ⟨S1x500000, .i32⟩
  | 70 => ⟨S500000, .i32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S500000x1, .i32⟩
  | 79 => ⟨S100000x128, .f32⟩
  | 80 => ⟨S1x64, .f32⟩
  | 81 => ⟨S64, .f32⟩
  | 82 => ⟨S100000x64, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S100000x64, .f32⟩
  | 89 => ⟨S100000x64, .f32⟩
  | 90 => ⟨S100000x64, .f32⟩
  | 91 => ⟨S100000x64, .f32⟩
  | 92 => ⟨S100000x64, .f32⟩
  | 93 => ⟨S100000x64, .f32⟩
  | 94 => ⟨S100000x64, .f32⟩
  | 95 => ⟨S100000x64, .f32⟩
  | 96 => ⟨S100000x128, .f32⟩
  | 97 => ⟨S100000x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S501x64, .f32⟩
  | 104 => ⟨S500x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_c_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_11 : Ref sig .tc := ⟨.hbm, 71, rfl⟩
abbrev main_v47 : Ref sig .tc := ⟨.hbm, 72, rfl⟩
abbrev main_v48 : Ref sig .tc := ⟨.hbm, 73, rfl⟩
abbrev main_c_12 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_15 : Ref sig .tc := ⟨.hbm, 102, rfl⟩
abbrev main_v74 : Ref sig .tc := ⟨.hbm, 103, rfl⟩
abbrev main_v75 : Ref sig .tc := ⟨.hbm, 104, rfl⟩
abbrev main_c_16 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_17 : Ref sig .tc := ⟨.hbm, 115, rfl⟩
abbrev main_v85 : Ref sig .tc := ⟨.hbm, 116, rfl⟩
abbrev main_c_18 : Ref sig .tc := ⟨.hbm, 117, rfl⟩
abbrev main_v86 : Ref sig .tc := ⟨.hbm, 118, rfl⟩
abbrev main_v87 : Ref sig .tc := ⟨.hbm, 119, rfl⟩
abbrev main_c_19 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_20 : Ref sig .tc := ⟨.hbm, 125, rfl⟩
abbrev main_v92 : Ref sig .tc := ⟨.hbm, 126, rfl⟩
abbrev main_v93 : Ref sig .tc := ⟨.hbm, 127, rfl⟩
abbrev main_cst_21 : Ref sig .tc := ⟨.hbm, 128, rfl⟩
abbrev main_v94 : Ref sig .tc := ⟨.hbm, 129, rfl⟩
abbrev main_v95 : Ref sig .tc := ⟨.hbm, 130, rfl⟩
abbrev main_cst_22 : Ref sig .tc := ⟨.hbm, 131, rfl⟩
abbrev main_v96 : Ref sig .tc := ⟨.hbm, 132, rfl⟩
abbrev main_v97 : Ref sig .tc := ⟨.hbm, 133, rfl⟩
abbrev main_cst_23 : Ref sig .tc := ⟨.hbm, 134, rfl⟩
abbrev main_call1_v0 : Ref sig .tc := ⟨.hbm, 135, rfl⟩
abbrev main_call1_v1 : Ref sig .tc := ⟨.hbm, 136, rfl⟩
abbrev main_v98 : Ref sig .tc := ⟨.hbm, 137, rfl⟩
abbrev main_c_24 : Ref sig .tc := ⟨.hbm, 138, rfl⟩
abbrev main_v99 : Ref sig .tc := ⟨.hbm, 139, rfl⟩
abbrev main_v100 : Ref sig .tc := ⟨.hbm, 140, rfl⟩
abbrev main_c_25 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_c_26 : Ref sig .tc := ⟨.hbm, 147, rfl⟩
abbrev main_v106 : Ref sig .tc := ⟨.hbm, 148, rfl⟩
abbrev main_v107 : Ref sig .tc := ⟨.hbm, 149, rfl⟩
abbrev main_c_27 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_c_28 : Ref sig .tc := ⟨.hbm, 159, rfl⟩
abbrev main_v116 : Ref sig .tc := ⟨.hbm, 160, rfl⟩
abbrev main_v117 : Ref sig .tc := ⟨.hbm, 161, rfl⟩
abbrev main_c_29 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_c_30 : Ref sig .tc := ⟨.hbm, 168, rfl⟩
abbrev main_v123 : Ref sig .tc := ⟨.hbm, 169, rfl⟩
abbrev main_v124 : Ref sig .tc := ⟨.hbm, 170, rfl⟩
abbrev main_c_31 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_32 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_cst_33 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_c_34 : Ref sig .tc := ⟨.hbm, 199, rfl⟩
abbrev main_v150 : Ref sig .tc := ⟨.hbm, 200, rfl⟩
abbrev main_v151 : Ref sig .tc := ⟨.hbm, 201, rfl⟩
abbrev main_c_35 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_cst_36 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_cst_37 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩

abbrev nD : Nat := 1
abbrev τ : Topo := Topo.v7x

variable {F : FTy → Type} [FloatOps F]

class Facts₀ : Prop where
  concatenates_S500x64_S1x64_S501x64_d0 : Shape.Concatenates [S500x64, S1x64] S501x64 0
  slices_S2x1000000_S2x500000_0_0 : S2x1000000.Slices ![0, 0] S2x500000
  slices_S2x1000000_S2x500000_0_500000 : S2x1000000.Slices ![0, 500000] S2x500000
  slices_S1000000_S500000_0 : S1000000.Slices ![0] S500000
  slices_S1000000_S500000_500000 : S1000000.Slices ![500000] S500000
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S100000 : S_.BroadcastsInDim S100000 (![] : Fin 0 → Fin S100000.rank)
  bcast_S_S500000 : S_.BroadcastsInDim S500000 (![] : Fin 0 → Fin S500000.rank)
  bcast_S500000_S500000x1_0 : S500000.BroadcastsInDim S500000x1 (![0] : Fin 1 → Fin S500000x1.rank)
  slices_S500000x128_S500000x64_0_0 : S500000x128.Slices ![0, 0] S500000x64
  slices_S500000x128_S500000x64_0_64 : S500000x128.Slices ![0, 64] S500000x64
  bcast_S_S500000x64 : S_.BroadcastsInDim S500000x64 (![] : Fin 0 → Fin S500000x64.rank)
  concatenates_S500000x64_S500000x64_S500000x128_d1 : Shape.Concatenates [S500000x64, S500000x64] S500000x128 1
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  slices_S501x64_S1x64_500_0 : S501x64.Slices ![500, 0] S1x64
  shapeCasts_S1x64_S64 : S1x64.ShapeCasts S64
  bcast_S64_S100000x64_1 : S64.BroadcastsInDim S100000x64 (![1] : Fin 1 → Fin S100000x64.rank)
  slices_S100000x128_S100000x64_0_0 : S100000x128.Slices ![0, 0] S100000x64
  slices_S100000x128_S100000x64_0_64 : S100000x128.Slices ![0, 64] S100000x64
  bcast_S_S100000x64 : S_.BroadcastsInDim S100000x64 (![] : Fin 0 → Fin S100000x64.rank)
  concatenates_S100000x64_S100000x64_S100000x128_d1 : Shape.Concatenates [S100000x64, S100000x64] S100000x128 1
  slices_S501x64_S500x64_0_0 : S501x64.Slices ![0, 0] S500x64
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  gather_S100000x128_S500000x1_S500000x128_1_0_n_n_0_1_1128_wf : GatherDims.WF S100000x128 S500000x1 S500000x128 [1] [0] [] [0] [] 1 ![1, 128]
  gather_S501x64_S500000x1_S500000x64_1_0_n_n_0_1_164_wf : GatherDims.WF S501x64 S500000x1 S500000x64 [1] [0] [] [0] [] 1 ![1, 64]
  dot_S500000x128_S128x128_S500000x128_1_0_0_1_n_n_wf : DotDims.WF S500000x128 S128x128 S500000x128 [1] [0] [0] [1] [] []
  scatter_S100000x128_S500000x1_S500000x128_1_0_0_1_wf : ScatterDims.WF S100000x128 S500000x1 S500000x128 [1] [0] [0] 1
  dot_S100000x128_S128x128_S100000x128_1_0_0_1_n_n_wf : DotDims.WF S100000x128 S128x128 S100000x128 [1] [0] [0] [1] [] []
  dot_S501x64_S64x64_S501x64_1_0_0_1_n_n_wf : DotDims.WF S501x64 S64x64 S501x64 [1] [0] [0] [1] [] []

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S501x64_S500000x1_S500000x64_1_0_n_n_0_1_164 : GatherDims S501x64 S500000x1 S500000x64 where
  offsetDims := [1]
  collapsedSliceDims := [0]
  operandBatchingDims := []
  startIndicesBatchingDims := []
  startIndexMap := [0]
  indexVectorDim := 1
  sliceSizes := ![1, 64]
  wf := gather_S501x64_S500000x1_S500000x64_1_0_n_n_0_1_164_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S501x64_S64x64_S501x64_1_0_0_1_n_n : DotDims S501x64 S64x64 S501x64 where
  lhsContracting := [1]
  rhsContracting := [0]
  lhsNonContracting := [0]
  rhsNonContracting := [1]
  lhsBatch := []
  rhsBatch := []
  wf := dot_S501x64_S64x64_S501x64_1_0_0_1_n_n_wf

class Facts : Prop extends Facts₀ where

variable [Facts]
-- ==== Proof.RotSpec.lean ====
/-
  The mathematics shared by the kernel and the reference, stated over plain arrays and importing no program.

  A row `x : Fin 128 → EReal` is read as 64 complex numbers, real parts first: `re k = x k`, `im k = x (k + 64)`.
  Given 64 phases `ph`, the ROTATED row is
      k < 64 :  re k · cos (ph k) + im k · sin (ph k)
      k ≥ 64 :  re (k-64) · sin (ph (k-64)) − im (k-64) · cos (ph (k-64)),
  and a message entry is the rotated row times a column of a 128×128 matrix (`rowDot`).
  The phase of a relation entry `g` is `g · invD`, with `invD` the reciprocal of the reference's divisor
  `D = 16021061 / 2^25`: the reference divides by `D`, the kernel multiplies by the named reciprocal, and on the
  extended reals the quotient by a nonzero real IS the product with its reciprocal.

  The one law both programs need (`rowDot_rotRow_scale`): scaling a row by a REAL factor `n` before the rotation
  and the matrix product scales the result by `n`. The rotation and the product are linear in the row, but on the
  extended reals distributivity needs every number involved to be a real, which is why the statement asks it.
-/
import Idealize.ShloMosaic.Lib.ValueIdx
import Idealize.ShloMosaic.PureOps.Ideal

noncomputable section

open scoped BigOperators

namespace Cert.RotSpec

open Idealize.ShloMosaic Idealize.ShloMosaic.ValueIdx

/-- The reciprocal of the reference's phase divisor `D = 16021061 / 33554432`. -/
def invD : EReal := ((33554432 / 16021061 : ℝ) : EReal)

/-- The final scale, the float word both programs carry for one third. -/
def third : EReal := Ideal.ofBits .f32 0x3EAAAAAB#32

/-- A row rotated by its phases (the header's two cases). -/
def rotRow (x : Fin 128 → EReal) (ph : Fin 64 → EReal) (k : Fin 128) : EReal :=
  if h : k.val < 64 then
    x ⟨k.val, by omega⟩ * Ideal.cos (ph ⟨k.val, h⟩) + x ⟨k.val + 64, by omega⟩ * Ideal.sin (ph ⟨k.val, h⟩)
  else
    x ⟨k.val - 64, by omega⟩ * Ideal.sin (ph ⟨k.val - 64, by omega⟩) - x k * Ideal.cos (ph ⟨k.val - 64, by omega⟩)

/-- A row times column `j` of a matrix. -/
def rowDot (r : Fin 128 → EReal) (w : Fin 128 → Fin 128 → EReal) (j : Fin 128) : EReal :=
  ∑ k : Fin 128, r k * w k j

/-- Row `e` of an array with 128 columns. -/
abbrev rowOf {R : Nat} (a : (⟨2, ![R, 128]⟩ : Shape).Idx → EReal) (e : Fin R) : Fin 128 → EReal := fun k => a (ix2 e k)

/-- The phases of row `e` of a relation array with 64 columns. -/
abbrev phaseOf {R : Nat} (g : (⟨2, ![R, 64]⟩ : Shape).Idx → EReal) (e : Fin R) : Fin 64 → EReal := fun k => g (ix2 e k) * invD

/-- A 128×128 array as a matrix. -/
abbrev matOf (w : (⟨2, ![128, 128]⟩ : Shape).Idx → EReal) : Fin 128 → Fin 128 → EReal := fun k j => w (ix2 k j)

/-- Every row of `a` rotated by the matching row of `g`'s phases, then multiplied by `w`. -/
def rotMat {R : Nat} (a : (⟨2, ![R, 128]⟩ : Shape).Idx → EReal) (g : (⟨2, ![R, 64]⟩ : Shape).Idx → EReal)
    (w : (⟨2, ![128, 128]⟩ : Shape).Idx → EReal) : (⟨2, ![R, 128]⟩ : Shape).Idx → EReal :=
  fun i => rowDot (rotRow (rowOf a (i 0)) (phaseOf g (i 0))) (matOf w) (i 1)

/-- The combined output: the two aggregated message arrays plus the self-loop message (every row of `x` rotated by
    the ONE row of loop phases, times `w`), all scaled by `third`. -/
def loopOut {R : Nat} (x a b : (⟨2, ![R, 128]⟩ : Shape).Idx → EReal) (lr : (⟨2, ![1, 64]⟩ : Shape).Idx → EReal)
    (w : (⟨2, ![128, 128]⟩ : Shape).Idx → EReal) : (⟨2, ![R, 128]⟩ : Shape).Idx → EReal :=
  fun i => (a i + b i + rowDot (rotRow (rowOf x (i 0)) (phaseOf lr 0)) (matOf w) (i 1)) * third

/-- A finite sum of reals, summed in the extended reals, is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The cosine and the sine of a real are reals. -/
theorem cos_coe (r : ℝ) : Ideal.cos (r : EReal) = ((Real.cos r : ℝ) : EReal) := rfl
theorem sin_coe (r : ℝ) : Ideal.sin (r : EReal) = ((Real.sin r : ℝ) : EReal) := rfl

/-- The rotated row of real data is real, entry by entry. -/
theorem rotRow_coe (x : Fin 128 → ℝ) (ph : Fin 64 → ℝ) (k : Fin 128) :
    rotRow (fun k => (x k : EReal)) (fun k => (ph k : EReal)) k
      = ((if h : k.val < 64 then x ⟨k.val, by omega⟩ * Real.cos (ph ⟨k.val, h⟩) + x ⟨k.val + 64, by omega⟩ * Real.sin (ph ⟨k.val, h⟩)
          else x ⟨k.val - 64, by omega⟩ * Real.sin (ph ⟨k.val - 64, by omega⟩) - x k * Real.cos (ph ⟨k.val - 64, by omega⟩) : ℝ) : EReal) := by
  unfold rotRow
  by_cases h : k.val < 64
  · rw [dif_pos h, dif_pos h, cos_coe, sin_coe, ← EReal.coe_mul, ← EReal.coe_mul, ← EReal.coe_add]
  · rw [dif_neg h, dif_neg h, cos_coe, sin_coe, ← EReal.coe_mul, ← EReal.coe_mul, ← EReal.coe_sub]

/-- THE LAW: a real factor on the row passes through the rotation and the matrix product. -/
theorem rowDot_rotRow_scale (x : Fin 128 → EReal) (ph : Fin 64 → EReal) (w : Fin 128 → Fin 128 → EReal) (n : EReal)
    (hx : ∀ k, ∃ r : ℝ, x k = (r : EReal)) (hph : ∀ k, ∃ r : ℝ, ph k = (r : EReal))
    (hw : ∀ k j, ∃ r : ℝ, w k j = (r : EReal)) (hn : ∃ r : ℝ, n = (r : EReal)) (j : Fin 128) :
    rowDot (rotRow (fun k => x k * n) ph) w j = rowDot (rotRow x ph) w j * n := by
  choose xr hxr using hx
  choose pr hpr using hph
  choose wr hwr using hw
  obtain ⟨nr, rfl⟩ := hn
  have ex : x = fun k => (xr k : EReal) := funext hxr
  have ep : ph = fun k => (pr k : EReal) := funext hpr
  subst ex; subst ep
  have es : (fun k => ((xr k : ℝ) : EReal) * (nr : EReal)) = fun k => (((xr k * nr : ℝ)) : EReal) :=
    funext fun k => (EReal.coe_mul _ _).symm
  unfold rowDot
  rw [es]
  simp only [rotRow_coe, hwr, ← EReal.coe_mul]
  rw [coe_sum, coe_sum, ← EReal.coe_mul]
  congr 1
  rw [Finset.sum_mul]
  refine Finset.sum_congr rfl fun k _ => ?_
  by_cases h : k.val < 64
  · simp only [dif_pos h]; ring
  · simp only [dif_neg h]; ring

/-- The same law for whole arrays: scaling each row `e` of `a` by a real `n e` scales row `e` of `rotMat`. -/
theorem rotMat_scale {R : Nat} (a : (⟨2, ![R, 128]⟩ : Shape).Idx → EReal) (g : (⟨2, ![R, 64]⟩ : Shape).Idx → EReal)
    (w : (⟨2, ![128, 128]⟩ : Shape).Idx → EReal) (nb : (⟨2, ![R, 128]⟩ : Shape).Idx → EReal) (n : Fin R → EReal)
    (hnb : ∀ e k, nb (ix2 e k) = n e)
    (ha : ∀ i, ∃ r : ℝ, a i = (r : EReal)) (hg : ∀ i, ∃ r : ℝ, g i = (r : EReal))
    (hw : ∀ i, ∃ r : ℝ, w i = (r : EReal)) (hn : ∀ e, ∃ r : ℝ, n e = (r : EReal)) :
    rotMat (fun i => a i * nb i) g w = fun i => rotMat a g w i * nb i := by
  funext i
  obtain ⟨e, q, rfl⟩ : ∃ (e : Fin R) (q : Fin 128), i = ix2 e q := ⟨i 0, i 1, eq_ix2 i⟩
  show rowDot (rotRow (fun k => a (ix2 e k) * nb (ix2 e k)) (phaseOf g e)) (matOf w) q
      = rowDot (rotRow (rowOf a e) (phaseOf g e)) (matOf w) q * nb (ix2 e q)
  simp only [hnb]
  refine rowDot_rotRow_scale (rowOf a e) (phaseOf g e) (matOf w) (n e) (fun k => ha _) (fun k => ?_) (fun k j => hw _) (hn e) q
  obtain ⟨r, hr⟩ := hg (ix2 e k)
  exact ⟨r * (33554432 / 16021061), by show g (ix2 e k) * invD = _; rw [hr, invD, ← EReal.coe_mul]⟩

/-- The reference's divisor, `0.477464825` as a float word, is the real `16021061 / 33554432`. -/
theorem ofBits_D : Ideal.ofBits .f32 0x3EF47645#32 = ((16021061 / 33554432 : ℝ) : EReal) := by
  simp [Ideal.ofBits, Ideal.ieee, -EReal.coe_mul]; norm_num

/-- Dividing by the reference's divisor is multiplying by `invD`, at every extended real. -/
theorem div_D (x : EReal) : Ideal.div x (Ideal.ofBits .f32 0x3EF47645#32) = x * invD := by
  rw [ofBits_D, Ideal.div_coe (by norm_num : (16021061 / 33554432 : ℝ) ≠ 0), invD]
  congr 2; norm_num

/-- The zero word, the one word and the exponent `-0.5` denote reals. -/
theorem ofBits_zero : Ideal.ofBits .f32 0x00000000#32 = ((0 : ℝ) : EReal) := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num

end Cert.RotSpec

end
-- ==== Proof.KernelChain.lean ====
/-
  The kernel program's two results as functions of its arguments.

  The run ends with every buffer at the last boundary's contents. Walking back from there: the combined output is
  what the combining kernel leaves, a function of the entity array, the two aggregated arrays, the loop relation and
  the loop weights as that kernel finds them; each aggregated array is the host's scatter-add, onto zeros at the
  wrapped row indices, of what an edge kernel leaves; and an edge kernel's array is the rotate-then-multiply of the
  gathered entity rows ALREADY scaled by the degree normalisation, the gathered relation rows and the direction's
  weights. Every host value on the way (wrapped indices, gathered rows, the broadcast normalisation, the zeros) is
  the same operation chain the reference applies to the same arguments, so it is named by the reference's own
  stage functions. The second result is the host's product of the concatenated relation table with the relation
  weights, cut to its first 500 rows: the reference's last stage verbatim.

  The three kernels' array values are taken as hypotheses here (they are proved from the kernels' block payloads in
  their own modules) so that this walk depends only on the program's frame.
-/
import proofs.«109089_j34394098106413_1_alg».proof.Proof.KernelRun
import proofs.«109089_j34394098106413_1_alg».proof.Proof.RefStages
import proofs.«109089_j34394098106413_1_alg».proof.Proof.RotSpec

set_option maxRecDepth 16384

noncomputable section

namespace Cert.KernelIdeal.Chain

open Cert.KernelIdeal Cert.KernelIdeal.Gen Cert.ReferenceIdeal.ReadP Cert.RotSpec
open Idealize.ShloMosaic Idealize.ShloMosaic.TcCoe Idealize.ShloMosaic.StableHlo Idealize.SL.Sem

/-! ## Host values, at any float instance -/

section Host

variable {F : FTy → Type} [FloatOps F] [Named F]
variable (m : (ℓ : Loc nD τ sig) → Buf (Elt F) ℓ) (ρ : Dev nD → PrngReg)

/-- The contents the first edge kernel is entered from, spelt as the five host stretches over the launch contents. -/
theorem W5_unfold (c : Dev nD) (b : DevRef τ sig) :
    W5 m ρ c b = StableHlo.after hostOps0_4 (StableHlo.after hostOps0_3 (StableHlo.after hostOps0_2 (StableHlo.after hostOps0_1
      (StableHlo.after hostOps0 (W0 m ρ c))))) b := rfl

set_option maxHeartbeats 4000000 in
/-- The incoming direction's gathered entity rows, scaled by the broadcast degree normalisation. -/
theorem W5_v82 (c : Dev nD) :
    W5 m ρ c (Proc.devRef .tc main_v82)
      = mulf (val_main_v46 (F := F) (m ((c : Thread nD τ).loc main_arg0)) (m ((c : Thread nD τ).loc main_arg1))) (val_main_v69 (F := F) (m ((c : Thread nD τ).loc main_arg1))) := by
  rw [W5_unfold]; after_results_simp <;> rfl

set_option maxHeartbeats 4000000 in
/-- The incoming direction's gathered relation rows. -/
theorem W5_v101 (c : Dev nD) :
    W5 m ρ c (Proc.devRef .tc main_v101) = val_main_v53 (F := F) (m ((c : Thread nD τ).loc main_arg2)) (m ((c : Thread nD τ).loc main_arg3)) (m ((c : Thread nD τ).loc main_arg8)) := by
  rw [W5_unfold]; after_results_simp <;> rfl

set_option maxHeartbeats 4000000 in
/-- The outgoing direction's gathered entity rows, scaled by its broadcast degree normalisation. -/
theorem W5_v94 (c : Dev nD) :
    W5 m ρ c (Proc.devRef .tc main_v94)
      = mulf (val_main_v122 (F := F) (m ((c : Thread nD τ).loc main_arg0)) (m ((c : Thread nD τ).loc main_arg1))) (val_main_v145 (F := F) (m ((c : Thread nD τ).loc main_arg1))) := by
  rw [W5_unfold]; after_results_simp <;> rfl

set_option maxHeartbeats 4000000 in
/-- The outgoing direction's gathered relation rows. -/
theorem W5_v108 (c : Dev nD) :
    W5 m ρ c (Proc.devRef .tc main_v108) = val_main_v129 (F := F) (m ((c : Thread nD τ).loc main_arg2)) (m ((c : Thread nD τ).loc main_arg3)) (m ((c : Thread nD τ).loc main_arg8)) := by
  rw [W5_unfold]; after_results_simp <;> rfl

set_option maxHeartbeats 4000000 in
/-- The concatenated relation table. -/
theorem W5_v0 (c : Dev nD) : W5 m ρ c (Proc.devRef .tc main_v0) = val_main_v0 (F := F) (m ((c : Thread nD τ).loc main_arg3)) (m ((c : Thread nD τ).loc main_arg8)) := by
  rw [W5_unfold]; after_results_simp <;> rfl

set_option maxHeartbeats 4000000 in
/-- The two halves of the edge list. -/
theorem W5_v1 (c : Dev nD) : W5 m ρ c (Proc.devRef .tc main_v1) = val_main_v1 (F := F) (m ((c : Thread nD τ).loc main_arg1)) := by
  rw [W5_unfold]; after_results_simp <;> rfl
set_option maxHeartbeats 4000000 in
theorem W5_v2 (c : Dev nD) : W5 m ρ c (Proc.devRef .tc main_v2) = val_main_v2 (F := F) (m ((c : Thread nD τ).loc main_arg1)) := by
  rw [W5_unfold]; after_results_simp <;> rfl

set_option maxHeartbeats 4000000 in
theorem W5_arg0 (c : Dev nD) : W5 m ρ c (Proc.devRef .tc main_arg0) = (m ((c : Thread nD τ).loc main_arg0)) := by
  rw [W5_unfold]; after_results_simp <;> rfl
set_option maxHeartbeats 4000000 in
theorem W5_arg4 (c : Dev nD) : W5 m ρ c (Proc.devRef .tc main_arg4) = (m ((c : Thread nD τ).loc main_arg4)) := by
  rw [W5_unfold]; after_results_simp <;> rfl
set_option maxHeartbeats 4000000 in
theorem W5_arg5 (c : Dev nD) : W5 m ρ c (Proc.devRef .tc main_arg5) = (m ((c : Thread nD τ).loc main_arg5)) := by
  rw [W5_unfold]; after_results_simp <;> rfl
set_option maxHeartbeats 4000000 in
theorem W5_arg6 (c : Dev nD) : W5 m ρ c (Proc.devRef .tc main_arg6) = (m ((c : Thread nD τ).loc main_arg6)) := by
  rw [W5_unfold]; after_results_simp <;> rfl
set_option maxHeartbeats 4000000 in
theorem W5_arg7 (c : Dev nD) : W5 m ρ c (Proc.devRef .tc main_arg7) = (m ((c : Thread nD τ).loc main_arg7)) := by
  rw [W5_unfold]; after_results_simp <;> rfl
set_option maxHeartbeats 4000000 in
theorem W5_arg8 (c : Dev nD) : W5 m ρ c (Proc.devRef .tc main_arg8) = (m ((c : Thread nD τ).loc main_arg8)) := by
  rw [W5_unfold]; after_results_simp <;> rfl

/-- The host stretch between the edge kernels and the combining kernel, over any contents `U`: the first aggregated
    array is the scatter-add, onto zeros at the incoming direction's wrapped row indices, of the first kernel's array. -/
theorem scatter_in (U : Valuation τ sig (Elt F)) (x1 : (⟨Cert.ReferenceIdeal.S2x1000000, .i32⟩ : BufTy).Contents (Elt F))
    (h1 : U (Proc.devRef .tc main_v1) = val_main_v1 (F := F) x1) :
    StableHlo.after hostOps2 U (Proc.devRef .tc main_v120)
      = Host.scatterAdd Cert.ReferenceIdeal.scatter_S100000x128_S500000x1_S500000x128_1_0_0_1 (val_main_v71 (F := F)) (val_main_v79 (F := F) x1) (U (Proc.devRef .tc main_v109)) := by
  after_results_simp; rw [h1]; rfl

/-- The second aggregated array, from the outgoing direction's row indices and the second kernel's array. -/
theorem scatter_out (U : Valuation τ sig (Elt F)) (x1 : (⟨Cert.ReferenceIdeal.S2x1000000, .i32⟩ : BufTy).Contents (Elt F))
    (h2 : U (Proc.devRef .tc main_v2) = val_main_v2 (F := F) x1) :
    StableHlo.after hostOps2 U (Proc.devRef .tc main_v130)
      = Host.scatterAdd Cert.ReferenceIdeal.scatter_S100000x128_S500000x1_S500000x128_1_0_0_1 (val_main_v147 (F := F)) (val_main_v155 (F := F) x1) (U (Proc.devRef .tc main_v110)) := by
  after_results_simp; rw [h2]; rfl

/-- That stretch leaves the arguments and the relation table alone. -/
theorem keep2_arg0 (U : Valuation τ sig (Elt F)) : StableHlo.after hostOps2 U (Proc.devRef .tc main_arg0) = U (Proc.devRef .tc main_arg0) := by
  after_results_simp
theorem keep2_arg4 (U : Valuation τ sig (Elt F)) : StableHlo.after hostOps2 U (Proc.devRef .tc main_arg4) = U (Proc.devRef .tc main_arg4) := by
  after_results_simp
theorem keep2_arg7 (U : Valuation τ sig (Elt F)) : StableHlo.after hostOps2 U (Proc.devRef .tc main_arg7) = U (Proc.devRef .tc main_arg7) := by
  after_results_simp
theorem keep2_arg8 (U : Valuation τ sig (Elt F)) : StableHlo.after hostOps2 U (Proc.devRef .tc main_arg8) = U (Proc.devRef .tc main_arg8) := by
  after_results_simp
theorem keep2_v0 (U : Valuation τ sig (Elt F)) : StableHlo.after hostOps2 U (Proc.devRef .tc main_v0) = U (Proc.devRef .tc main_v0) := by
  after_results_simp

/-- The last stretch leaves the combined output alone and writes the second result from the relation table. -/
theorem keep3_v131 (U : Valuation τ sig (Elt F)) : StableHlo.after hostOps3 U (Proc.devRef .tc main_v131) = U (Proc.devRef .tc main_v131) := by
  after_results_simp
theorem tail_v133 (U : Valuation τ sig (Elt F)) (x3 : (⟨Cert.ReferenceIdeal.S500x64, .f32⟩ : BufTy).Contents (Elt F))
    (x8 : (⟨Cert.ReferenceIdeal.S1x64, .f32⟩ : BufTy).Contents (Elt F))
    (h0 : U (Proc.devRef .tc main_v0) = val_main_v0 (F := F) x3 x8) :
    StableHlo.after hostOps3 U (Proc.devRef .tc main_v133) = val_main_v179 (F := F) x3 (U (Proc.devRef .tc main_arg7)) x8 := by
  after_results_simp; rw [h0]; rfl

end Host

/-! ## The walk back from the last boundary, at the ideal instance -/

section Walk

variable (m : (ℓ : Loc nD τ sig) → Buf (Elt Ideal) ℓ) (ρ : Dev nD → PrngReg)
/-- What the three kernels leave in their output arrays, as hypotheses of the walk. -/
abbrev EdgeFact0 : Prop := ∀ (V : (c : Dev nD) → (b : Ref sig .tc) → Buf (Elt Ideal) ((c : Thread nD τ).loc b)) (c : Dev nD),
    (dat0 (F := Ideal) V c).arrAt 3 cfg0.N = rotMat (V c main_v82) (V c main_v101) (V c main_arg5)
abbrev EdgeFact1 : Prop := ∀ (V : (c : Dev nD) → (b : Ref sig .tc) → Buf (Elt Ideal) ((c : Thread nD τ).loc b)) (c : Dev nD),
    (dat1 (F := Ideal) V c).arrAt 3 cfg1.N = rotMat (V c main_v94) (V c main_v108) (V c main_arg6)
abbrev LoopFact : Prop := ∀ (V : (c : Dev nD) → (b : Ref sig .tc) → Buf (Elt Ideal) ((c : Thread nD τ).loc b)) (c : Dev nD),
    (dat2 (F := Ideal) V c).arrAt 5 cfg2.N
      = loopOut (V c main_arg0) (V c main_v120) (V c main_v130) (V c main_arg8) (V c main_arg4)

/-- The incoming messages as the first edge kernel leaves them. -/
def msgIn (c : Dev nD) : Cert.ReferenceIdeal.S500000x128.Idx → EReal :=
  rotMat ((mulf (val_main_v46 (F := Ideal) (m ((c : Thread nD τ).loc main_arg0)) (m ((c : Thread nD τ).loc main_arg1))) (val_main_v69 (F := Ideal) (m ((c : Thread nD τ).loc main_arg1))) : FVec Ideal Cert.ReferenceIdeal.S500000x128 .f32))
    (val_main_v53 (F := Ideal) (m ((c : Thread nD τ).loc main_arg2)) (m ((c : Thread nD τ).loc main_arg3)) (m ((c : Thread nD τ).loc main_arg8))) (m ((c : Thread nD τ).loc main_arg5))

/-- The outgoing messages as the second edge kernel leaves them. -/
def msgOut (c : Dev nD) : Cert.ReferenceIdeal.S500000x128.Idx → EReal :=
  rotMat ((mulf (val_main_v122 (F := Ideal) (m ((c : Thread nD τ).loc main_arg0)) (m ((c : Thread nD τ).loc main_arg1))) (val_main_v145 (F := Ideal) (m ((c : Thread nD τ).loc main_arg1))) : FVec Ideal Cert.ReferenceIdeal.S500000x128 .f32))
    (val_main_v129 (F := Ideal) (m ((c : Thread nD τ).loc main_arg2)) (m ((c : Thread nD τ).loc main_arg3)) (m ((c : Thread nD τ).loc main_arg8))) (m ((c : Thread nD τ).loc main_arg6))

theorem W6_v109 (hR0 : EdgeFact0) (c : Dev nD) : W6 m ρ c (Proc.devRef .tc main_v109) = msgIn m c := by
  refine (W6_arr m ρ c 3).trans ?_
  rw [hR0 (V5 m ρ) c]
  show rotMat (W5 m ρ c (Proc.devRef .tc main_v82)) (W5 m ρ c (Proc.devRef .tc main_v101)) (W5 m ρ c (Proc.devRef .tc main_arg5)) = _
  rw [W5_v82, W5_v101, W5_arg5]; rfl

theorem W7_v110 (hR1 : EdgeFact1) (c : Dev nD) : W7 m ρ c (Proc.devRef .tc main_v110) = msgOut m c := by
  refine (W7_arr m ρ c 3).trans ?_
  rw [hR1 (V6 m ρ) c]
  show rotMat (W6 m ρ c (Proc.devRef .tc main_v94)) (W6 m ρ c (Proc.devRef .tc main_v108)) (W6 m ρ c (Proc.devRef .tc main_arg6)) = _
  rw [W6_of_ne m ρ c main_v94 (by decide), W6_of_ne m ρ c main_v108 (by decide), W6_of_ne m ρ c main_arg6 (by decide),
    W5_v94, W5_v108, W5_arg6]; rfl

/-- A buffer neither edge kernel's pipeline owns is, at the second kernel's exit, what it was at the first's entry. -/
theorem W7_of_W5 (c : Dev nD) (b : Ref sig .tc) (h0 : ∀ w, Pipeline.arrRef spec0 w ≠ b) (h1 : ∀ w, Pipeline.arrRef spec1 w ≠ b) :
    W7 m ρ c (Proc.devRef .tc b) = W5 m ρ c (Proc.devRef .tc b) :=
  (W7_of_ne m ρ c b h1).trans (W6_of_ne m ρ c b h0)

/-- THE FIRST RESULT: the combination of the entity array, the two aggregated message arrays, the loop relation and the
    loop weights. -/
theorem W10_v131 (hR0 : EdgeFact0) (hR1 : EdgeFact1) (hR2 : LoopFact) (c : Dev nD) :
    W10 m ρ c (Proc.devRef .tc main_v131)
      = loopOut (m ((c : Thread nD τ).loc main_arg0))
          ((Host.scatterAdd Cert.ReferenceIdeal.scatter_S100000x128_S500000x1_S500000x128_1_0_0_1 (val_main_v71 (F := Ideal)) (val_main_v79 (F := Ideal) (m ((c : Thread nD τ).loc main_arg1))) (msgIn m c)) : FVec Ideal Cert.ReferenceIdeal.S100000x128 .f32)
          ((Host.scatterAdd Cert.ReferenceIdeal.scatter_S100000x128_S500000x1_S500000x128_1_0_0_1 (val_main_v147 (F := Ideal)) (val_main_v155 (F := Ideal) (m ((c : Thread nD τ).loc main_arg1))) (msgOut m c)) : FVec Ideal Cert.ReferenceIdeal.S100000x128 .f32)
          (m ((c : Thread nD τ).loc main_arg8)) (m ((c : Thread nD τ).loc main_arg4)) := by
  have e1 : W7 m ρ c (Proc.devRef .tc main_v1) = val_main_v1 (F := Ideal) (m ((c : Thread nD τ).loc main_arg1)) :=
    (W7_of_W5 m ρ c main_v1 (by decide) (by decide)).trans (W5_v1 m ρ c)
  have e2 : W7 m ρ c (Proc.devRef .tc main_v2) = val_main_v2 (F := Ideal) (m ((c : Thread nD τ).loc main_arg1)) :=
    (W7_of_W5 m ρ c main_v2 (by decide) (by decide)).trans (W5_v2 m ρ c)
  have e109 : W7 m ρ c (Proc.devRef .tc main_v109) = msgIn m c :=
    (W7_of_ne m ρ c main_v109 (by decide)).trans (W6_v109 m ρ hR0 c)
  have a0 : W8 m ρ c (Proc.devRef .tc main_arg0) = (m ((c : Thread nD τ).loc main_arg0)) :=
    (keep2_arg0 (W7 m ρ c)).trans ((W7_of_W5 m ρ c main_arg0 (by decide) (by decide)).trans (W5_arg0 m ρ c))
  have a4 : W8 m ρ c (Proc.devRef .tc main_arg4) = (m ((c : Thread nD τ).loc main_arg4)) :=
    (keep2_arg4 (W7 m ρ c)).trans ((W7_of_W5 m ρ c main_arg4 (by decide) (by decide)).trans (W5_arg4 m ρ c))
  have a8 : W8 m ρ c (Proc.devRef .tc main_arg8) = (m ((c : Thread nD τ).loc main_arg8)) :=
    (keep2_arg8 (W7 m ρ c)).trans ((W7_of_W5 m ρ c main_arg8 (by decide) (by decide)).trans (W5_arg8 m ρ c))
  have s1 : W8 m ρ c (Proc.devRef .tc main_v120)
      = (Host.scatterAdd Cert.ReferenceIdeal.scatter_S100000x128_S500000x1_S500000x128_1_0_0_1 (val_main_v71 (F := Ideal)) (val_main_v79 (F := Ideal) (m ((c : Thread nD τ).loc main_arg1))) (msgIn m c) : FVec Ideal Cert.ReferenceIdeal.S100000x128 .f32) :=
    (scatter_in (W7 m ρ c) _ e1).trans (by rw [e109])
  have s2 : W8 m ρ c (Proc.devRef .tc main_v130)
      = (Host.scatterAdd Cert.ReferenceIdeal.scatter_S100000x128_S500000x1_S500000x128_1_0_0_1 (val_main_v147 (F := Ideal)) (val_main_v155 (F := Ideal) (m ((c : Thread nD τ).loc main_arg1))) (msgOut m c) : FVec Ideal Cert.ReferenceIdeal.S100000x128 .f32) :=
    (scatter_out (W7 m ρ c) _ e2).trans (by rw [W7_v110 m ρ hR1 c])
  refine (keep3_v131 (W9 m ρ c)).trans ((W9_arr m ρ c 5).trans ?_)
  rw [hR2 (V8 m ρ) c]
  show loopOut (W8 m ρ c (Proc.devRef .tc main_arg0)) (W8 m ρ c (Proc.devRef .tc main_v120)) (W8 m ρ c (Proc.devRef .tc main_v130))
    (W8 m ρ c (Proc.devRef .tc main_arg8)) (W8 m ρ c (Proc.devRef .tc main_arg4)) = _
  rw [a0, a4, a8, s1, s2]

/-- THE SECOND RESULT: the reference's last stage of the relation table and the relation weights. -/
theorem W10_v133 (c : Dev nD) :
    W10 m ρ c (Proc.devRef .tc main_v133) = val_main_v179 (F := Ideal) (m ((c : Thread nD τ).loc main_arg3)) (m ((c : Thread nD τ).loc main_arg7)) (m ((c : Thread nD τ).loc main_arg8)) := by
  have e0 : W9 m ρ c (Proc.devRef .tc main_v0) = val_main_v0 (F := Ideal) (m ((c : Thread nD τ).loc main_arg3)) (m ((c : Thread nD τ).loc main_arg8)) :=
    (W9_of_ne m ρ c main_v0 (by decide)).trans ((keep2_v0 (W7 m ρ c)).trans
      ((W7_of_W5 m ρ c main_v0 (by decide) (by decide)).trans (W5_v0 m ρ c)))
  have e7 : W9 m ρ c (Proc.devRef .tc main_arg7) = (m ((c : Thread nD τ).loc main_arg7)) :=
    (W9_of_ne m ρ c main_arg7 (by decide)).trans ((keep2_arg7 (W7 m ρ c)).trans
      ((W7_of_W5 m ρ c main_arg7 (by decide) (by decide)).trans (W5_arg7 m ρ c)))
  exact (tail_v133 (W9 m ρ c) _ _ e0).trans (by rw [e7])

end Walk

end Cert.KernelIdeal.Chain

end
-- ==== Proof.PhaseFactor.lean ====
/-
  The kernel's phase factor. The three kernel bodies multiply a relation entry by one float word, which the
  certificate's table names as the exact reciprocal `33554432 / 16021061` of the reference's divisor: at the ideal
  instance the named word denotes that rational, which is `RotSpec.invD`.
-/
import proofs.«109089_j34394098106413_1_alg».proof.Proof.Gen.KernelIdeal
import proofs.«109089_j34394098106413_1_alg».proof.Proof.RotSpec
import Idealize.ShloMosaic.PureOps.IdealRules

noncomputable section

namespace Cert.KernelIdeal.BlockValue

open Cert.KernelIdeal Cert.RotSpec Idealize.ShloMosaic

/-- The named phase factor is `invD`. -/
theorem named_invD : Named.named (F := Ideal) κ "inv_phase_div" (φ := .f32) 0x40060A92#32 = invD :=
  IdealRules.named_const.ideal_named_scalar _ _ _ _ rfl

end Cert.KernelIdeal.BlockValue

end
-- ==== Proof.EdgePayload.lean ====
/-
  What one grid point of an edge kernel stores, read at an index: the block of pre-scaled gathered rows is rotated
  row by row with the phases of the matching block of gathered relation rows, and multiplied by the 128×128 weights.
-/
import proofs.«109089_j34394098106413_1_alg».proof.Proof.Gen.KernelIdeal.Skeleton
import proofs.«109089_j34394098106413_1_alg».proof.Proof.RotSpec
import proofs.«109089_j34394098106413_1_alg».proof.Proof.PhaseFactor
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Cert.RotSpec Idealize.ShloMosaic Idealize.ShloMosaic.ValueIdx

/-! ## The matrix product read at an index

The product's dimension numbers contract the left operand's columns with the right operand's rows; the four facts
below read the two operand indices axis by axis, and the lemma after them turns the product into the sum over the
one contracted coordinate. -/

theorem lhs_edge_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_edge_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_edge_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_edge_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator at row `p`, column `q`: row `p` of the left operand times column `q` of
    the right one. -/
theorem matmul_at (a : FVec Ideal S5000x128 .bf16) (b : FVec Ideal S128x128 .bf16) (p : Fin 5000) (q : Fin 128) :
    matmul (F := Ideal) dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_edge_0 _ _
    | ⟨1, _⟩ => exact (lhs_edge_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_edge_0 _ _).trans hk
    | ⟨1, _⟩ => exact rhs_edge_1 _ _)
  rw [el, er]

/-! ## The two halves of a row, and the joined block, read at an index -/

/-- The slice of columns 0 … 63 at `(p, k)` is the block at `(p, k)`. -/
theorem lo_at (x : FVec Ideal S5000x128 .f32) (p : Fin 5000) (k : Fin 64) :
    extractStridedSlice S5000x64 ![0, 0] x slices_S5000x128_o0_0_S5000x64 (ix2 p k) = x (ix2 p ⟨k.val, by omega⟩) :=
  extractStridedSlice_apply _ x _ (ix2 p k) (ix2 p ⟨k.val, by omega⟩) (fun a => match a with
    | ⟨0, _⟩ => by show p.val = 0 + p.val; omega
    | ⟨1, _⟩ => by show k.val = 0 + k.val; omega)

/-- The slice of columns 64 … 127 at `(p, k)` is the block at `(p, k + 64)`. -/
theorem hi_at (x : FVec Ideal S5000x128 .f32) (p : Fin 5000) (k : Fin 64) :
    extractStridedSlice S5000x64 ![0, 64] x slices_S5000x128_o0_64_S5000x64 (ix2 p k) = x (ix2 p ⟨k.val + 64, by omega⟩) :=
  extractStridedSlice_apply _ x _ (ix2 p k) (ix2 p ⟨k.val + 64, by omega⟩) (fun a => match a with
    | ⟨0, _⟩ => by show p.val = 0 + p.val; omega
    | ⟨1, _⟩ => by show k.val + 64 = 64 + k.val; omega)

/-- Two 64-column blocks joined along the columns, read in the first 64 columns: the first block. -/
theorem cat_lo (u v : FVec Ideal S5000x64 .f32) (p : Fin 5000) (k : Fin 128) (h : k.val < 64) :
    concatenate S5000x128 1 [⟨S5000x64, u⟩, ⟨S5000x64, v⟩] concatenates_S5000x64_S5000x64_S5000x128_d1 (ix2 p k)
      = u (ix2 p ⟨k.val, h⟩) :=
  concatenate_pair_apply_left 1 u v _ (ix2 p k) rfl (ix2 p ⟨k.val, h⟩) (fun b => match b with
    | ⟨0, _⟩ => rfl
    | ⟨1, _⟩ => rfl)

/-- … and read in the last 64 columns: the second block, 64 columns to the left. -/
theorem cat_hi (u v : FVec Ideal S5000x64 .f32) (p : Fin 5000) (k : Fin 128) (h : ¬ k.val < 64) :
    concatenate S5000x128 1 [⟨S5000x64, u⟩, ⟨S5000x64, v⟩] concatenates_S5000x64_S5000x64_S5000x128_d1 (ix2 p k)
      = v (ix2 p ⟨k.val - 64, by omega⟩) :=
  concatenate_pair_apply_right 1 u v _ (ix2 p k) rfl rfl (ix2 p ⟨k.val - 64, by omega⟩)
    (fun b hb => match b, hb with
      | ⟨0, _⟩, _ => rfl
      | ⟨1, _⟩, hb => absurd (Fin.ext rfl) hb)
    (by show (k.val - 64) + 64 = k.val; omega)

/-! ## The payload -/

/-- The block the body multiplies by the weights — the row's two halves combined with the phases' cosines and sines,
    the two combinations joined along the columns — read at `(p, k)` is entry `k` of row `p` rotated by its phases. -/
theorem rot_block_at (x0 : FVec Ideal S5000x128 .f32) (x4 : FVec Ideal S5000x64 .f32) (p : Fin 5000) (k : Fin 128) :
    concatenate S5000x128 1
      [⟨S5000x64, addf (mulf (extractStridedSlice S5000x64 ![0, 0] x0 slices_S5000x128_o0_0_S5000x64) (cos (mulf x4 (broadcast S5000x64 invD))))
                       (mulf (extractStridedSlice S5000x64 ![0, 64] x0 slices_S5000x128_o0_64_S5000x64) (sin (mulf x4 (broadcast S5000x64 invD))))⟩,
       ⟨S5000x64, subf (mulf (extractStridedSlice S5000x64 ![0, 0] x0 slices_S5000x128_o0_0_S5000x64) (sin (mulf x4 (broadcast S5000x64 invD))))
                       (mulf (extractStridedSlice S5000x64 ![0, 64] x0 slices_S5000x128_o0_64_S5000x64) (cos (mulf x4 (broadcast S5000x64 invD))))⟩]
      concatenates_S5000x64_S5000x64_S5000x128_d1 (ix2 p k)
      = rotRow (rowOf x0 p) (phaseOf x4 p) k := by
  unfold rotRow
  by_cases h : k.val < 64
  · rw [dif_pos h, cat_lo _ _ p k h, addf_apply, mulf_apply, mulf_apply, lo_at, hi_at]
    rfl
  · rw [dif_neg h, cat_hi _ _ p k h, subf_apply, mulf_apply, mulf_apply, lo_at, hi_at]
    have e : (⟨k.val - 64 + 64, by omega⟩ : Fin 128) = k := Fin.ext (by show k.val - 64 + 64 = k.val; omega)
    rw [e]
    rfl

/-- The stored block of the first edge kernel is the rotate-then-multiply of its three loaded blocks. -/
theorem edge_block0 (x0 : Vec Ideal S5000x128 .f32) (x4 : Vec Ideal S5000x64 .f32) (w : Vec Ideal S128x128 .f32) :
    k0_pay1 (F := Ideal) x0 x4 w = rotMat x0 x4 w := by
  funext i
  obtain ⟨p, q, rfl⟩ : ∃ (p : Fin 5000) (q : Fin 128), i = ix2 p q := ⟨i 0, i 1, eq_ix2 i⟩
  unfold k0_pay1
  rw [matmul_at, shapeCast_self, shapeCast_self, named_invD]
  unfold rotMat rowDot
  refine Finset.sum_congr rfl fun k _ => ?_
  rw [truncf_apply, truncf_apply, rot_block_at]

/-- The second edge kernel stores the same function of its blocks. -/
theorem edge_block1 (x0 : Vec Ideal S5000x128 .f32) (x4 : Vec Ideal S5000x64 .f32) (w : Vec Ideal S128x128 .f32) :
    k1_pay1 (F := Ideal) x0 x4 w = rotMat x0 x4 w :=
  edge_block0 x0 x4 w

end Cert.KernelIdeal.BlockValue

end
-- ==== Proof.EdgeArray.lean ====
/-
  The message array an edge kernel leaves after its hundred grid points: point t writes rows 5000·t … 5000·t + 4999,
  each from the same rows of its two row-blocked inputs, so the whole array is the rotate-then-multiply of the whole
  input arrays as the region finds them.
-/
import proofs.«109089_j34394098106413_1_alg».proof.Proof.Gen.KernelIdeal.Frame
import proofs.«109089_j34394098106413_1_alg».proof.Proof.EdgePayload
import Idealize.ShloMosaic.Lib.Pipeline.Value
import Idealize.ShloMosaic.Lib.ValueIdx
import Idealize.ShloMosaic.Lib.ValueLayout
import Idealize.ShloMosaic.PureOps.Ideal.Laws

-- membership in a rectangle of the arrays' full extents recurses once per coordinate of the long axis
set_option maxRecDepth 16384

noncomputable section

namespace Cert.KernelIdeal.ArrayValue

open Cert.KernelIdeal Cert.KernelIdeal.Gen Cert.RotSpec Idealize.ShloMosaic Idealize.ShloMosaic.ValueIdx Cert.KernelIdeal.BlockValue
open Idealize.ShloMosaic.TcCoe Idealize.SL.Sem
open Idealize.ShloMosaic.Pipeline (Dat Cfg Window)

/-! ## The rotate-then-multiply of a block of rows is the same rows of the rotate-then-multiply of the arrays -/

/-- The two zero offsets, however spelt. -/
theorem zero_off : (![0, 0] : Fin 2 → Nat) = fun _ => 0 := funext fun a => by fin_cases a <;> rfl

/-- Row `y 0` of a block that holds row `i 0` of the arrays, with the same weights, gives entry `(i 0, y 1)` of the
    arrays' rotate-then-multiply: the function reads only one row of each row-blocked input. -/
theorem rotMat_rows {R r : Nat} (A : (⟨2, ![R, 128]⟩ : Shape).Idx → EReal) (P : (⟨2, ![R, 64]⟩ : Shape).Idx → EReal)
    (W : (⟨2, ![128, 128]⟩ : Shape).Idx → EReal)
    (a : (⟨2, ![r, 128]⟩ : Shape).Idx → EReal) (p : (⟨2, ![r, 64]⟩ : Shape).Idx → EReal)
    (w : (⟨2, ![128, 128]⟩ : Shape).Idx → EReal)
    (y : (⟨2, ![r, 128]⟩ : Shape).Idx) (i : (⟨2, ![R, 128]⟩ : Shape).Idx)
    (ha : ∀ k : Fin 128, a (ix2 (y 0) k) = A (ix2 (i 0) k))
    (hp : ∀ k : Fin 64, p (ix2 (y 0) k) = P (ix2 (i 0) k))
    (hw : w = W) (hcol : y 1 = i 1) :
    rotMat a p w y = rotMat A P W i := by
  have e1 : rowOf a (y 0) = rowOf A (i 0) := funext ha
  have e2 : phaseOf p (y 0) = phaseOf P (i 0) := funext fun k => by
    show p (ix2 (y 0) k) * invD = P (ix2 (i 0) k) * invD
    rw [hp]
  subst hw
  show rowDot (rotRow (rowOf a (y 0)) (phaseOf p (y 0))) (matOf w) (y 1)
    = rowDot (rotRow (rowOf A (i 0)) (phaseOf P (i 0))) (matOf w) (i 1)
  rw [e1, e2, hcol]

variable (V : (c : Dev nD) → (b : Ref sig .tc) → Buf (Elt Ideal) ((c : Thread nD τ).loc b))

/-! ## The first edge kernel -/

/-- The printed index maps over the grid: the three row-blocked windows sit at row-block `t`, the weights at block 0. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The block of pre-scaled rows at point `t` is rows `5000 t … 5000 t + 4999` of its array. -/
theorem rows0_apply (c : Dev nD) (t : Fin cfg0.N) (x : S5000x128.Idx) (k : S500000x128.Idx)
    (hk0 : (k 0).val = 5000 * t.val + (x 0).val) (hk1 : (k 1).val = (x 1).val) :
    (iblk0 (F := Ideal) V c 0 t : Vec Ideal S5000x128 .f32) x = (V c main_v82 : S500000x128.Idx → EReal) k := by
  obtain ⟨e0, e1, -⟩ := blockIndex0 t
  unfold iblk0
  rw [View.read_apply]
  show V c main_v82 _ = V c main_v82 _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- The block of relation rows at point `t` is the same rows of its array. -/
theorem phases0_apply (c : Dev nD) (t : Fin cfg0.N) (x : S5000x64.Idx) (k : S500000x64.Idx)
    (hk0 : (k 0).val = 5000 * t.val + (x 0).val) (hk1 : (k 1).val = (x 1).val) :
    (iblk0 (F := Ideal) V c 1 t : Vec Ideal S5000x64 .f32) x = (V c main_v101 : S500000x64.Idx → EReal) k := by
  obtain ⟨-, -, e0, e1, -⟩ := blockIndex0 t
  unfold iblk0
  rw [View.read_apply]
  show V c main_v101 _ = V c main_v101 _
  congr 1
  funext a
  apply Fin.ext
  match a with
  | ⟨0, _⟩ => show win0_1.index t (0 : Fin 2) * 5000 + 1 * (x 0).val = (k 0).val; rw [e0, hk0]; omega
  | ⟨1, _⟩ => show win0_1.index t (1 : Fin 2) * 64 + 1 * (x 1).val = (k 1).val; rw [e1, hk1]; omega

/-- The weights' one block is the whole weight matrix, at every point. -/
theorem weights0_eq (c : Dev nD) (t : Fin cfg0.N) :
    (iblk0 (F := Ideal) V c 2 t : Vec Ideal S128x128 .f32) = (V c main_arg5 : S128x128.Idx → EReal) := by
  obtain ⟨-, -, -, -, e0, e1, -⟩ := blockIndex0 t
  funext x
  unfold iblk0
  rw [View.read_apply]
  show V c main_arg5 _ = V c main_arg5 _
  congr 1
  funext a
  apply Fin.ext
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

/-- What point `t` writes back is block `t` of the rotate-then-multiply of the arrays as the region finds them. -/
theorem flushed0_eq (c : Dev nD) (t : Fin cfg0.N) :
    (dat0 (F := Ideal) V c).flushed 3 t
      = ((cfg0.win 3).blk t).view.read (Elt Ideal) (rotMat (V c main_v82) (V c main_v101) (V c main_arg5)) := by
  show (cfg0.win 3).cut (grid0.coords t) ((dat0 V c).after 3 t) = _
  rw [after0_3]
  unfold out0_3
  rw [View.canon_unit_zero zero_off]
  simp only [View.ld_unit_zero (S := S5000x128) zero_off, View.ld_unit_zero (S := S5000x64) zero_off,
    View.ld_unit_zero (S := S128x128) zero_off]
  rw [edge_block0]
  obtain ⟨-, -, -, -, -, -, e0, e1⟩ := blockIndex0 t
  funext y
  show rotMat (iblk0 V c 0 t) (iblk0 V c 1 t) (iblk0 V c 2 t) y
    = rotMat (V c main_v82) (V c main_v101) (V c main_arg5) (((cfg0.win 3).blk t).view.emb y)
  have r0 : ((((cfg0.win 3).blk t).view.emb y) 0).val = 5000 * t.val + (y 0).val := by
    show win0_3.index t (0 : Fin 2) * 5000 + 1 * (y 0).val = _; rw [e0]; omega
  have r1 : ((((cfg0.win 3).blk t).view.emb y) 1).val = (y 1).val := by
    show win0_3.index t (1 : Fin 2) * 128 + 1 * (y 1).val = _; rw [e1]; omega
  exact rotMat_rows _ _ _ _ _ _ y _
    (fun k => rows0_apply V c t _ _ r0 rfl) (fun k => phases0_apply V c t _ _ r0 rfl) (weights0_eq V c t)
    (Fin.ext r1.symm)

/-- An index of the output array is in point `t`'s block iff each coordinate is in the block's range on its axis. -/
theorem mem_block0 (t : Fin cfg0.N) (i : S500000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v109).slice (win0_3.rect t)).set ↔ _
  rw [View.set_slice_whole, Rect.mem_set_unit]
  exact Iff.rfl

/-- Row `r` of the output array is written by point `r / 5000`. -/
theorem cover0 (i : S500000x128.Idx) :
    ∃ t : Fin cfg0.N, (cfg0.win 3).flush t = true ∧ i ∈ ((cfg0.win 3).blk t).view.set := by
  have h0 : (i 0).val < 500000 := (i 0).isLt
  have h1 : (i 1).val < 128 := (i 1).isLt
  have hN : cfg0.N = 100 := N_0
  obtain ⟨t, ht⟩ : ∃ t : Fin cfg0.N, t.val = (i 0).val / 5000 := ⟨⟨(i 0).val / 5000, by rw [hN]; omega⟩, rfl⟩
  obtain ⟨-, -, -, -, -, -, e0, e1⟩ := blockIndex0 t
  refine ⟨t, flush0_3 t, ?_⟩
  rw [mem_block0]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- The first edge kernel's output array after its run. -/
theorem region0_array (c : Dev nD) :
    (dat0 (F := Ideal) V c).arrAt 3 cfg0.N = rotMat (V c main_v82) (V c main_v101) (V c main_arg5) :=
  (dat0 (F := Ideal) V c).arrAt_eq_of_cover 3 _ (fun t _ => flushed0_eq V c t) cover0

/-! ## The second edge kernel -/

/-- The printed index maps over the grid: the three row-blocked windows sit at row-block `t`, the weights at block 0. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block of pre-scaled rows at point `t` is rows `5000 t … 5000 t + 4999` of its array. -/
theorem rows1_apply (c : Dev nD) (t : Fin cfg1.N) (x : S5000x128.Idx) (k : S500000x128.Idx)
    (hk0 : (k 0).val = 5000 * t.val + (x 0).val) (hk1 : (k 1).val = (x 1).val) :
    (iblk1 (F := Ideal) V c 0 t : Vec Ideal S5000x128 .f32) x = (V c main_v94 : S500000x128.Idx → EReal) k := by
  obtain ⟨e0, e1, -⟩ := blockIndex1 t
  unfold iblk1
  rw [View.read_apply]
  show V c main_v94 _ = V c main_v94 _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 128 + 1 * (x 1).val = (k 1).val; rw [e1, hk1]; omega

/-- The block of relation rows at point `t` is the same rows of its array. -/
theorem phases1_apply (c : Dev nD) (t : Fin cfg1.N) (x : S5000x64.Idx) (k : S500000x64.Idx)
    (hk0 : (k 0).val = 5000 * t.val + (x 0).val) (hk1 : (k 1).val = (x 1).val) :
    (iblk1 (F := Ideal) V c 1 t : Vec Ideal S5000x64 .f32) x = (V c main_v108 : S500000x64.Idx → EReal) k := by
  obtain ⟨-, -, e0, e1, -⟩ := blockIndex1 t
  unfold iblk1
  rw [View.read_apply]
  show V c main_v108 _ = V c main_v108 _
  congr 1
  funext a
  apply Fin.ext
  match a with
  | ⟨0, _⟩ => show win1_1.index t (0 : Fin 2) * 5000 + 1 * (x 0).val = (k 0).val; rw [e0, hk0]; omega
  | ⟨1, _⟩ => show win1_1.index t (1 : Fin 2) * 64 + 1 * (x 1).val = (k 1).val; rw [e1, hk1]; omega

/-- The weights' one block is the whole weight matrix, at every point. -/
theorem weights1_eq (c : Dev nD) (t : Fin cfg1.N) :
    (iblk1 (F := Ideal) V c 2 t : Vec Ideal S128x128 .f32) = (V c main_arg6 : S128x128.Idx → EReal) := by
  obtain ⟨-, -, -, -, e0, e1, -⟩ := blockIndex1 t
  funext x
  unfold iblk1
  rw [View.read_apply]
  show V c main_arg6 _ = V c main_arg6 _
  congr 1
  funext a
  apply Fin.ext
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

/-- What point `t` writes back is block `t` of the rotate-then-multiply of the arrays as the region finds them. -/
theorem flushed1_eq (c : Dev nD) (t : Fin cfg1.N) :
    (dat1 (F := Ideal) V c).flushed 3 t
      = ((cfg1.win 3).blk t).view.read (Elt Ideal) (rotMat (V c main_v94) (V c main_v108) (V c main_arg6)) := by
  show (cfg1.win 3).cut (grid1.coords t) ((dat1 V c).after 3 t) = _
  rw [after1_3]
  unfold out1_3
  rw [View.canon_unit_zero zero_off]
  simp only [View.ld_unit_zero (S := S5000x128) zero_off, View.ld_unit_zero (S := S5000x64) zero_off,
    View.ld_unit_zero (S := S128x128) zero_off]
  rw [edge_block1]
  obtain ⟨-, -, -, -, -, -, e0, e1⟩ := blockIndex1 t
  funext y
  show rotMat (iblk1 V c 0 t) (iblk1 V c 1 t) (iblk1 V c 2 t) y
    = rotMat (V c main_v94) (V c main_v108) (V c main_arg6) (((cfg1.win 3).blk t).view.emb y)
  have r0 : ((((cfg1.win 3).blk t).view.emb y) 0).val = 5000 * t.val + (y 0).val := by
    show win1_3.index t (0 : Fin 2) * 5000 + 1 * (y 0).val = _; rw [e0]; omega
  have r1 : ((((cfg1.win 3).blk t).view.emb y) 1).val = (y 1).val := by
    show win1_3.index t (1 : Fin 2) * 128 + 1 * (y 1).val = _; rw [e1]; omega
  exact rotMat_rows _ _ _ _ _ _ y _
    (fun k => rows1_apply V c t _ _ r0 rfl) (fun k => phases1_apply V c t _ _ r0 rfl) (weights1_eq V c t)
    (Fin.ext r1.symm)

/-- An index of the output array is in point `t`'s block iff each coordinate is in the block's range on its axis. -/
theorem mem_block1 (t : Fin cfg1.N) (i : S500000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v110).slice (win1_3.rect t)).set ↔ _
  rw [View.set_slice_whole, Rect.mem_set_unit]
  exact Iff.rfl

/-- Row `r` of the output array is written by point `r / 5000`. -/
theorem cover1 (i : S500000x128.Idx) :
    ∃ t : Fin cfg1.N, (cfg1.win 3).flush t = true ∧ i ∈ ((cfg1.win 3).blk t).view.set := by
  have h0 : (i 0).val < 500000 := (i 0).isLt
  have h1 : (i 1).val < 128 := (i 1).isLt
  have hN : cfg1.N = 100 := N_1
  obtain ⟨t, ht⟩ : ∃ t : Fin cfg1.N, t.val = (i 0).val / 5000 := ⟨⟨(i 0).val / 5000, by rw [hN]; omega⟩, rfl⟩
  obtain ⟨-, -, -, -, -, -, e0, e1⟩ := blockIndex1 t
  refine ⟨t, flush1_3 t, ?_⟩
  rw [mem_block1]
  intro a
  match a with
  | ⟨0, _⟩ =>
    show win1_3.index t (0 : Fin 2) * 5000 ≤ (i 0).val ∧ (i 0).val < win1_3.index t (0 : Fin 2) * 5000 + 5000
    rw [e0, ht]; omega
  | ⟨1, _⟩ =>
    show win1_3.index t (1 : Fin 2) * 128 ≤ (i 1).val ∧ (i 1).val < win1_3.index t (1 : Fin 2) * 128 + 128
    rw [e1]; omega

/-- The second edge kernel's output array after its run. -/
theorem region1_array (c : Dev nD) :
    (dat1 (F := Ideal) V c).arrAt 3 cfg1.N = rotMat (V c main_v94) (V c main_v108) (V c main_arg6) :=
  (dat1 (F := Ideal) V c).arrAt_eq_of_cover 3 _ (fun t _ => flushed1_eq V c t) cover1

end Cert.KernelIdeal.ArrayValue

end
-- ==== Proof.LoopPayload.lean ====
/-
  What one grid point of the combining kernel stores, read at an index: the two aggregated message blocks plus the
  self-loop message of the block of entity rows (rotated by the one row of loop phases, times the loop weights),
  scaled by one third.
-/
import proofs.«109089_j34394098106413_1_alg».proof.Proof.Gen.KernelIdeal.Skeleton
import proofs.«109089_j34394098106413_1_alg».proof.Proof.RotSpec
import proofs.«109089_j34394098106413_1_alg».proof.Proof.PhaseFactor
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Cert.RotSpec Idealize.ShloMosaic Idealize.ShloMosaic.ValueIdx

/-! ## The two phase rows, read at an index

The one row of loop phases is scaled by the phase factor, its cosine and sine taken, and each of the two rows is
repeated over the 4000 rows of the block: at `(p, j)` both read the one row at `j`. -/

/-- The cosine row at `(p, j)`: the cosine of the loop phase of column `j`. -/
theorem loop_cos_row_apply (x3 : Vec Ideal S1x64 .f32) (p : Fin 4000) (j : Fin 64) :
    broadcastTo S4000x64 (shapeCast S1x64 (cos (mulf x3 (broadcast S1x64 (Named.named (F := Ideal) κ "inv_phase_div" (φ := .f32) 0x40060A92#32)))) shapeCasts_S1x64_S1x64)
        broadcasts_S1x64_S4000x64 (ix2 p j)
      = Ideal.cos (phaseOf x3 0 j) := by
  rw [broadcastTo_1b_ab_apply, shapeCast_self]
  show Ideal.cos (x3 (ix2 0 j) * (Named.named (F := Ideal) κ "inv_phase_div" (φ := .f32) 0x40060A92#32)) = _
  rw [named_invD]

/-- The sine row at `(p, j)`: the sine of the loop phase of column `j`. -/
theorem loop_sin_row_apply (x3 : Vec Ideal S1x64 .f32) (p : Fin 4000) (j : Fin 64) :
    broadcastTo S4000x64 (shapeCast S1x64 (sin (mulf x3 (broadcast S1x64 (Named.named (F := Ideal) κ "inv_phase_div" (φ := .f32) 0x40060A92#32)))) shapeCasts_S1x64_S1x64)
        broadcasts_S1x64_S4000x64 (ix2 p j)
      = Ideal.sin (phaseOf x3 0 j) := by
  rw [broadcastTo_1b_ab_apply, shapeCast_self]
  show Ideal.sin (x3 (ix2 0 j) * (Named.named (F := Ideal) κ "inv_phase_div" (φ := .f32) 0x40060A92#32)) = _
  rw [named_invD]

/-! ## The product with the loop weights, read at an index

The contraction runs over the left operand's columns and the right operand's rows: at `(p, q)` the left operand is
read along row `p` and the right one along column `q`. -/

/-- The left operand's row is the output's row. -/
theorem loop_lhs_0 (i : S4000x128.Idx) (c : dot_S4000x128_S128x128_S4000x128_1_0_0_1_n_n.contr.Idx) :
    (dot_S4000x128_S128x128_S4000x128_1_0_0_1_n_n.lhsIdx i c 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column is the contraction position. -/
theorem loop_lhs_1 (i : S4000x128.Idx) (c : dot_S4000x128_S128x128_S4000x128_1_0_0_1_n_n.contr.Idx) :
    (dot_S4000x128_S128x128_S4000x128_1_0_0_1_n_n.lhsIdx i c 1).val = (c ⟨0, by decide⟩).val :=
  dot_S4000x128_S128x128_S4000x128_1_0_0_1_n_n.lhsIdx_val_of_single rfl i c
/-- The right operand's row is the contraction position. -/
theorem loop_rhs_0 (i : S4000x128.Idx) (c : dot_S4000x128_S128x128_S4000x128_1_0_0_1_n_n.contr.Idx) :
    (dot_S4000x128_S128x128_S4000x128_1_0_0_1_n_n.rhsIdx i c 0).val = (c ⟨0, by decide⟩).val :=
  dot_S4000x128_S128x128_S4000x128_1_0_0_1_n_n.rhsIdx_val_of_single rfl i c
/-- The right operand's column is the output's column. -/
theorem loop_rhs_1 (i : S4000x128.Idx) (c : dot_S4000x128_S128x128_S4000x128_1_0_0_1_n_n.contr.Idx) :
    (dot_S4000x128_S128x128_S4000x128_1_0_0_1_n_n.rhsIdx i c 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product into a zero accumulator at `(p, q)`: row `p` of the left operand times column `q` of the right. -/
theorem loop_matmul_apply (L : FVec Ideal S4000x128 .bf16) (R : FVec Ideal S128x128 .bf16) (p : Fin 4000) (q : Fin 128) :
    FloatOps.matmul dot_S4000x128_S128x128_S4000x128_1_0_0_1_n_n none L R (constant (F := Ideal) S4000x128 .f32 0x00000000#32) (ix2 p q)
      = ∑ k : Fin 128, L (ix2 p k) * R (ix2 k q) := by
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact loop_lhs_0 _ _
    | ⟨1, _⟩ => exact (loop_lhs_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (loop_rhs_0 _ _).trans hk
    | ⟨1, _⟩ => exact loop_rhs_1 _ _)
  rw [el, er]

/-! ## The stored block -/

/-- The stored block of the combining kernel. -/
theorem loop_block (x0 : Vec Ideal S4000x128 .f32) (x3 : Vec Ideal S1x64 .f32) (w : Vec Ideal S128x128 .f32)
    (a b : Vec Ideal S4000x128 .f32) :
    k2_pay1 (F := Ideal) x0 x3 w a b = loopOut x0 a b x3 w := by
  funext i
  obtain ⟨p, q, rfl⟩ : ∃ (p : Fin 4000) (q : Fin 128), i = ix2 p q := ⟨i 0, i 1, eq_ix2 i⟩
  unfold k2_pay1
  simp only [matmul]
  rw [mulf_apply, addf_apply, addf_apply, broadcast_apply, shapeCast_self, shapeCast_self, loop_matmul_apply]
  show _ = (a (ix2 p q) + b (ix2 p q) + ∑ k : Fin 128, rotRow (rowOf x0 p) (phaseOf x3 0) k * w (ix2 k q)) * third
  refine congrArg (fun s => (a (ix2 p q) + b (ix2 p q) + s) * third) (Finset.sum_congr rfl fun k _ => ?_)
  rw [truncf_apply, truncf_apply]
  refine congrArg (· * w (ix2 k q)) ?_
  unfold rotRow
  by_cases h : k.val < 64
  · -- a column of the first half: the real part times the cosine plus the imaginary part times the sine
    rw [dif_pos h,
      concatenate_pair_apply_left (1 : Fin S4000x128.rank) _ _ concatenates_S4000x64_S4000x64_S4000x128_d1 (ix2 p k) rfl
        (ix2 p (⟨k.val, h⟩ : Fin 64)) (fun b => by match b with | ⟨0, _⟩ => rfl | ⟨1, _⟩ => rfl),
      addf_apply, mulf_apply, mulf_apply, loop_cos_row_apply, loop_sin_row_apply,
      slice2_axis1_apply 0 x0 slices_S4000x128_o0_0_S4000x64 p (⟨k.val, h⟩ : Fin 64) (⟨k.val, by omega⟩ : Fin 128) (Nat.zero_add _).symm,
      slice2_axis1_apply 64 x0 slices_S4000x128_o0_64_S4000x64 p (⟨k.val, h⟩ : Fin 64) (⟨k.val + 64, by omega⟩ : Fin 128) (Nat.add_comm _ _)]
  · -- a column of the second half: the real part times the sine minus the imaginary part times the cosine
    have h64 : k.val - 64 < 64 := by omega
    rw [dif_neg h,
      concatenate_pair_apply_right (1 : Fin S4000x128.rank) _ _ concatenates_S4000x64_S4000x64_S4000x128_d1 (ix2 p k) rfl rfl
        (ix2 p (⟨k.val - 64, h64⟩ : Fin 64))
        (fun b hb => by match b, hb with | ⟨0, _⟩, _ => rfl | ⟨1, _⟩, hb => exact absurd (Fin.ext rfl) hb)
        (by show k.val - 64 + 64 = k.val; omega),
      subf_apply, mulf_apply, mulf_apply, loop_cos_row_apply, loop_sin_row_apply,
      slice2_axis1_apply 0 x0 slices_S4000x128_o0_0_S4000x64 p (⟨k.val - 64, h64⟩ : Fin 64) (⟨k.val - 64, by omega⟩ : Fin 128) (Nat.zero_add _).symm,
      slice2_axis1_apply 64 x0 slices_S4000x128_o0_64_S4000x64 p (⟨k.val - 64, h64⟩ : Fin 64) k (by show k.val = 64 + (k.val - 64); omega)]

end Cert.KernelIdeal.BlockValue

end
-- ==== Proof.LoopArray.lean ====
/-
  The output array the combining kernel leaves after its twenty-five grid points: point t writes rows
  4000·t … 4000·t + 3999 from the same rows of the entity array and of the two aggregated message arrays.
-/
import proofs.«109089_j34394098106413_1_alg».proof.Proof.Gen.KernelIdeal.Frame
import proofs.«109089_j34394098106413_1_alg».proof.Proof.LoopPayload
import Idealize.ShloMosaic.Lib.Pipeline.Value
import Idealize.ShloMosaic.Lib.ValueIdx
import Idealize.ShloMosaic.Lib.ValueLayout
import Idealize.ShloMosaic.PureOps.Ideal.Laws

-- the rectangles below live in an array of a hundred thousand rows
set_option maxRecDepth 16384

noncomputable section

namespace Cert.KernelIdeal.ArrayValue

open Cert.KernelIdeal Cert.KernelIdeal.Gen Cert.RotSpec Idealize.ShloMosaic Idealize.ShloMosaic.ValueIdx Cert.KernelIdeal.BlockValue
open Idealize.ShloMosaic.TcCoe Idealize.SL.Sem
open Idealize.ShloMosaic.Pipeline (Dat Cfg Window)

variable (V : (c : Dev nD) → (b : Ref sig .tc) → Buf (Elt Ideal) ((c : Thread nD τ).loc b))

/-- The zero offsets of a whole-buffer access are the constant zero. -/
theorem zero_offsets : (![0, 0] : Fin 2 → Nat) = fun _ => 0 := funext fun a => by fin_cases a <;> rfl

/-- Where each window's block sits at grid point `t`: the entity rows, the two aggregated message arrays and the
    output are cut into row blocks and point `t` takes block `t`; the loop phases and the loop weights are taken whole. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The combined value at a row of a block is the combined value at the matching row of the whole arrays: the two
    message entries agree, the entity row agrees entry by entry, and the column is the same. -/
theorem loopOut_at_row {R R' : Nat}
    (x a b : (⟨2, ![R, 128]⟩ : Shape).Idx → EReal) (X A B : (⟨2, ![R', 128]⟩ : Shape).Idx → EReal)
    (lr LR : (⟨2, ![1, 64]⟩ : Shape).Idx → EReal) (w W : (⟨2, ![128, 128]⟩ : Shape).Idx → EReal)
    (y : (⟨2, ![R, 128]⟩ : Shape).Idx) (i : (⟨2, ![R', 128]⟩ : Shape).Idx)
    (hcol : (y 1 : Fin 128) = i 1)
    (hx : ∀ k : Fin 128, x (ix2 (y 0) k) = X (ix2 (i 0) k))
    (ha : a y = A i) (hb : b y = B i) (hlr : lr = LR) (hw : w = W) :
    loopOut x a b lr w y = loopOut X A B LR W i := by
  subst hlr hw
  show (a y + b y + rowDot (rotRow (rowOf x (y 0)) (phaseOf lr 0)) (matOf w) (y 1)) * third
    = (A i + B i + rowDot (rotRow (rowOf X (i 0)) (phaseOf lr 0)) (matOf w) (i 1)) * third
  have hrow : rowOf x (y 0) = rowOf X (i 0) := funext hx
  rw [ha, hb, hrow, hcol]

/-- WHAT POINT `t` WRITES BACK is row block `t` of the combined array of the arrays as the region finds them. -/
theorem flushed_eq (c : Dev nD) (t : Fin cfg2.N) :
    (dat2 (F := Ideal) V c).flushed 5 t = ((cfg2.win 5).blk t).view.read (Elt Ideal)
      (loopOut (V c main_arg0) (V c main_v120) (V c main_v130) (V c main_arg8) (V c main_arg4)) := by
  show (cfg2.win 5).cut (grid2.coords t) ((dat2 (F := Ideal) V c).after 5 t) = _
  rw [after2_5]
  unfold out2_5
  rw [View.canon_unit_zero zero_offsets]
  simp only [View.ld_unit_zero (S := S4000x128) zero_offsets, View.ld_unit_zero (S := S1x64) zero_offsets,
    View.ld_unit_zero (S := S128x128) zero_offsets]
  rw [loop_block]
  obtain ⟨e00, e01, e10, e11, e20, e21, e30, e31, e40, e41, e50, e51⟩ := block_indices t
  funext y
  refine loopOut_at_row (R := 4000) (R' := 100000) (iblk2 V c 0 t) (iblk2 V c 1 t) (iblk2 V c 2 t)
    (V c main_arg0) (V c main_v120) (V c main_v130) (iblk2 V c 3 t) (V c main_arg8) (iblk2 V c 4 t) (V c main_arg4)
    y (((cfg2.win 5).blk t).view.emb y) ?_ ?_ ?_ ?_ ?_ ?_
  · -- the column: the output's blocks span all 128 columns
    apply Fin.ext
    show (y 1).val = win2_5.index t (1 : Fin 2) * 128 + 1 * (y 1).val
    omega
  · -- the entity row: row (y 0) of block t is row 4000·t + (y 0) of the array
    intro k
    show V c main_arg0 (((cfg2.win 0).blk t).view.emb (ix2 (y 0) k)) = V c main_arg0 (ix2 ((((cfg2.win 5).blk t).view.emb y) 0) k)
    refine congrArg _ (funext fun a => Fin.ext ?_)
    match a with
    | ⟨0, _⟩ => show win2_0.index t (0 : Fin 2) * 4000 + 1 * (y 0).val = win2_5.index t (0 : Fin 2) * 4000 + 1 * (y 0).val; omega
    | ⟨1, _⟩ => show win2_0.index t (1 : Fin 2) * 128 + 1 * k.val = k.val; omega
  · -- the first aggregated message entry
    show V c main_v120 (((cfg2.win 1).blk t).view.emb y) = V c main_v120 (((cfg2.win 5).blk t).view.emb y)
    refine congrArg _ (funext fun a => Fin.ext ?_)
    match a with
    | ⟨0, _⟩ => show win2_1.index t (0 : Fin 2) * 4000 + 1 * (y 0).val = win2_5.index t (0 : Fin 2) * 4000 + 1 * (y 0).val; omega
    | ⟨1, _⟩ => show win2_1.index t (1 : Fin 2) * 128 + 1 * (y 1).val = win2_5.index t (1 : Fin 2) * 128 + 1 * (y 1).val; omega
  · -- the second aggregated message entry
    show V c main_v130 (((cfg2.win 2).blk t).view.emb y) = V c main_v130 (((cfg2.win 5).blk t).view.emb y)
    refine congrArg _ (funext fun a => Fin.ext ?_)
    match a with
    | ⟨0, _⟩ => show win2_2.index t (0 : Fin 2) * 4000 + 1 * (y 0).val = win2_5.index t (0 : Fin 2) * 4000 + 1 * (y 0).val; omega
    | ⟨1, _⟩ => show win2_2.index t (1 : Fin 2) * 128 + 1 * (y 1).val = win2_5.index t (1 : Fin 2) * 128 + 1 * (y 1).val; omega
  · -- the one row of loop phases, taken whole
    funext z
    show V c main_arg8 (((cfg2.win 3).blk t).view.emb z) = V c main_arg8 z
    refine congrArg _ (funext fun a => Fin.ext ?_)
    match a with
    | ⟨0, _⟩ => show win2_3.index t (0 : Fin 2) * 1 + 1 * (z 0).val = (z 0).val; omega
    | ⟨1, _⟩ => show win2_3.index t (1 : Fin 2) * 64 + 1 * (z 1).val = (z 1).val; omega
  · -- the loop weights, taken whole
    funext z
    show V c main_arg4 (((cfg2.win 4).blk t).view.emb z) = V c main_arg4 z
    refine congrArg _ (funext fun a => Fin.ext ?_)
    match a with
    | ⟨0, _⟩ => show win2_4.index t (0 : Fin 2) * 128 + 1 * (z 0).val = (z 0).val; omega
    | ⟨1, _⟩ => show win2_4.index t (1 : Fin 2) * 128 + 1 * (z 1).val = (z 1).val; omega

/-- An index of the output array is in point `t`'s block iff each coordinate is in the block's range on its axis. -/
theorem mem_block (t : Fin cfg2.N) (i : S100000x128.Idx) :
    i ∈ ((cfg2.win 5).blk t).view.set ↔ ∀ a : Fin 2, win2_5.index t a * S4000x128.size a ≤ (i a).val
      ∧ (i a).val < win2_5.index t a * S4000x128.size a + S4000x128.size a := by
  show i ∈ ((View.whole main_v131).slice (win2_5.rect t)).set ↔ _
  rw [View.set_slice_whole, Rect.mem_set_unit]
  exact Iff.rfl

/-- Each of the twenty-five row blocks of the output is some grid point's. -/
theorem block_onto : ∀ q : Fin 25, ∃ t : Fin cfg2.N, win2_5.index t (0 : Fin 2) = q.val :=
  (by decide +kernel : ∀ q : Fin 25, ∃ t : Fin grid2.N, win2_5.index t (0 : Fin 2) = q.val)

/-- Every index of the output array is written back by some grid point: row `r` lies in row block `r / 4000`,
    and a block spans all 128 columns. -/
theorem rows_covered (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := block_onto ⟨(i 0).val / 4000, by omega⟩
  have q0 : win2_5.index t (0 : Fin 2) = (i 0).val / 4000 := ht
  obtain ⟨-, -, -, -, -, -, -, -, -, -, -, e51⟩ := block_indices t
  refine ⟨t, flush2_5 t, ?_⟩
  rw [mem_block]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 128 ≤ (i 1).val ∧ (i 1).val < win2_5.index t (1 : Fin 2) * 128 + 128; omega

/-- The combining kernel's output array after its run. -/
theorem region2_array (c : Dev nD) :
    (dat2 (F := Ideal) V c).arrAt 5 cfg2.N
      = loopOut (V c main_arg0) (V c main_v120) (V c main_v130) (V c main_arg8) (V c main_arg4) :=
  (dat2 (F := Ideal) V c).arrAt_eq_of_cover 5 _ (fun t _ => flushed_eq V c t) rows_covered

end Cert.KernelIdeal.ArrayValue

end
-- ==== Proof.RefMessages.lean ====
/-
  The reference's per-edge messages before the degree scaling: the gathered entity rows rotated by the gathered
  relation rows' phases (the quotient by the divisor read as the product with its reciprocal) and multiplied by
  the direction's weights — the same rotate-then-multiply the kernel's blocks compute.
-/
import proofs.«109089_j34394098106413_1_alg».proof.Proof.RefStages
import proofs.«109089_j34394098106413_1_alg».proof.Proof.RotSpec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.ReadP Cert.RotSpec Idealize.ShloMosaic Idealize.ShloMosaic.ValueIdx

/-- Column `k` of edge `e`'s concatenated row (incoming direction): the left piece is the first rotation
    case, the right piece the second; the quotient by the divisor is the product with its reciprocal. -/
theorem row_in (x0 : (⟨S100000x128, .f32⟩ : BufTy).Contents (Elt Ideal)) (x1 : (⟨S2x1000000, .i32⟩ : BufTy).Contents (Elt Ideal))
    (x2 : (⟨S1000000, .i32⟩ : BufTy).Contents (Elt Ideal)) (x3 : (⟨S500x64, .f32⟩ : BufTy).Contents (Elt Ideal))
    (x8 : (⟨S1x64, .f32⟩ : BufTy).Contents (Elt Ideal)) (e : Fin 500000) (k : Fin 128) :
    val_main_v66 (F := Ideal) x0 x1 x2 x3 x8 (ix2 e k)
      = rotRow (rowOf (val_main_v46 (F := Ideal) x0 x1) e) (phaseOf (val_main_v53 (F := Ideal) x2 x3 x8) e) k := by
  unfold val_main_v66 rotRow
  by_cases h : k.val < 64
  · rw [dif_pos h]
    refine (concatenate_pair_apply_left (s₁ := S500000x64) (s₂ := S500000x64) (1 : Fin S500000x128.rank) _ _
      Gen.concatenates_S500000x64_S500000x64_S500000x128_d1 (ix2 e k) rfl (ix2 e (⟨k.val, h⟩ : Fin 64))
      (fun b => match b with | ⟨0, _⟩ => rfl | ⟨1, _⟩ => rfl)).trans ?_
    have e1 : idx_main_v54 (ix2 e (⟨k.val, h⟩ : Fin 64)) = ix2 e (⟨k.val, by omega⟩ : Fin 128) :=
      funext fun a => match a with | ⟨0, _⟩ => rfl | ⟨1, _⟩ => rfl
    have e2 : idx_main_v55 (ix2 e (⟨k.val, h⟩ : Fin 64)) = ix2 e (⟨k.val + 64, by omega⟩ : Fin 128) :=
      funext fun a => match a with
        | ⟨0, _⟩ => rfl
        | ⟨1, _⟩ => Fin.ext (by show 64 + k.val = k.val + 64; omega)
    rw [val_main_v62_apply, val_main_v60_apply, val_main_v61_apply, val_main_v54_apply, val_main_v55_apply,
      val_main_v58_apply, val_main_v59_apply, val_main_v57_apply, val_main_v56_apply, val_main_cst_13_apply, e1, e2]
    simp only [Ideal.addf_def, Ideal.mulf_def, Ideal.hostDivf_def, Ideal.hostUnary_cos_def, Ideal.hostUnary_sin_def,
      Ideal.ofBits_def, div_D]
  · rw [dif_neg h]
    have hk : k.val < 128 := k.isLt
    refine (concatenate_pair_apply_right (s₁ := S500000x64) (s₂ := S500000x64) (1 : Fin S500000x128.rank) _ _
      Gen.concatenates_S500000x64_S500000x64_S500000x128_d1 (ix2 e k) rfl rfl (ix2 e (⟨k.val - 64, by omega⟩ : Fin 64))
      (fun b => match b with | ⟨0, _⟩ => fun _ => rfl | ⟨1, _⟩ => fun hne => absurd rfl hne)
      (by show k.val - 64 + 64 = k.val; omega)).trans ?_
    have e1 : idx_main_v54 (ix2 e (⟨k.val - 64, by omega⟩ : Fin 64)) = ix2 e (⟨k.val - 64, by omega⟩ : Fin 128) :=
      funext fun a => match a with | ⟨0, _⟩ => rfl | ⟨1, _⟩ => rfl
    have e2 : idx_main_v55 (ix2 e (⟨k.val - 64, by omega⟩ : Fin 64)) = ix2 e k :=
      funext fun a => match a with
        | ⟨0, _⟩ => rfl
        | ⟨1, _⟩ => Fin.ext (by show 64 + (k.val - 64) = k.val; omega)
    rw [val_main_v65_apply, val_main_v63_apply, val_main_v64_apply, val_main_v54_apply, val_main_v55_apply,
      val_main_v58_apply, val_main_v59_apply, val_main_v57_apply, val_main_v56_apply, val_main_cst_13_apply, e1, e2]
    simp only [Ideal.subf_def, Ideal.mulf_def, Ideal.hostDivf_def, Ideal.hostUnary_cos_def, Ideal.hostUnary_sin_def,
      Ideal.ofBits_def, div_D]

/-- The incoming direction's unscaled messages. -/
theorem msg_in (x0 : (⟨S100000x128, .f32⟩ : BufTy).Contents (Elt Ideal)) (x1 : (⟨S2x1000000, .i32⟩ : BufTy).Contents (Elt Ideal))
    (x2 : (⟨S1000000, .i32⟩ : BufTy).Contents (Elt Ideal)) (x3 : (⟨S500x64, .f32⟩ : BufTy).Contents (Elt Ideal))
    (x5 : (⟨S128x128, .f32⟩ : BufTy).Contents (Elt Ideal)) (x8 : (⟨S1x64, .f32⟩ : BufTy).Contents (Elt Ideal)) :
    val_main_v67 (F := Ideal) x0 x1 x2 x3 x5 x8
      = rotMat (val_main_v46 (F := Ideal) x0 x1) (val_main_v53 (F := Ideal) x2 x3 x8) x5 := by
  funext i
  obtain ⟨e, q, rfl⟩ : ∃ (e : Fin 500000) (q : Fin 128), i = ix2 e q := ⟨i 0, i 1, eq_ix2 i⟩
  rw [val_main_v67_apply]
  unfold rotMat rowDot
  refine Finset.sum_congr rfl fun k _ => ?_
  have hl : lidx_main_v67 (ix2 e q) k = ix2 e k :=
    funext fun a => match a with | ⟨0, _⟩ => rfl | ⟨1, _⟩ => rfl
  have hr : ridx_main_v67 (ix2 e q) k = ix2 k q :=
    funext fun a => match a with | ⟨0, _⟩ => rfl | ⟨1, _⟩ => rfl
  rw [hl, hr, row_in]

/-- Column `k` of edge `e`'s concatenated row (outgoing direction): the left piece is the first rotation
    case, the right piece the second; the quotient by the divisor is the product with its reciprocal. -/
theorem row_out (x0 : (⟨S100000x128, .f32⟩ : BufTy).Contents (Elt Ideal)) (x1 : (⟨S2x1000000, .i32⟩ : BufTy).Contents (Elt Ideal))
    (x2 : (⟨S1000000, .i32⟩ : BufTy).Contents (Elt Ideal)) (x3 : (⟨S500x64, .f32⟩ : BufTy).Contents (Elt Ideal))
    (x8 : (⟨S1x64, .f32⟩ : BufTy).Contents (Elt Ideal)) (e : Fin 500000) (k : Fin 128) :
    val_main_v142 (F := Ideal) x0 x1 x2 x3 x8 (ix2 e k)
      = rotRow (rowOf (val_main_v122 (F := Ideal) x0 x1) e) (phaseOf (val_main_v129 (F := Ideal) x2 x3 x8) e) k := by
  unfold val_main_v142 rotRow
  by_cases h : k.val < 64
  · rw [dif_pos h]
    refine (concatenate_pair_apply_left (s₁ := S500000x64) (s₂ := S500000x64) (1 : Fin S500000x128.rank) _ _
      Gen.concatenates_S500000x64_S500000x64_S500000x128_d1 (ix2 e k) rfl (ix2 e (⟨k.val, h⟩ : Fin 64))
      (fun b => match b with | ⟨0, _⟩ => rfl | ⟨1, _⟩ => rfl)).trans ?_
    have e1 : idx_main_v130 (ix2 e (⟨k.val, h⟩ : Fin 64)) = ix2 e (⟨k.val, by omega⟩ : Fin 128) :=
      funext fun a => match a with | ⟨0, _⟩ => rfl | ⟨1, _⟩ => rfl
    have e2 : idx_main_v131 (ix2 e (⟨k.val, h⟩ : Fin 64)) = ix2 e (⟨k.val + 64, by omega⟩ : Fin 128) :=
      funext fun a => match a with
        | ⟨0, _⟩ => rfl
        | ⟨1, _⟩ => Fin.ext (by show 64 + k.val = k.val + 64; omega)
    rw [val_main_v138_apply, val_main_v136_apply, val_main_v137_apply, val_main_v130_apply, val_main_v131_apply,
      val_main_v134_apply, val_main_v135_apply, val_main_v133_apply, val_main_v132_apply, val_main_cst_32_apply, e1, e2]
    simp only [Ideal.addf_def, Ideal.mulf_def, Ideal.hostDivf_def, Ideal.hostUnary_cos_def, Ideal.hostUnary_sin_def,
      Ideal.ofBits_def, div_D]
  · rw [dif_neg h]
    have hk : k.val < 128 := k.isLt
    refine (concatenate_pair_apply_right (s₁ := S500000x64) (s₂ := S500000x64) (1 : Fin S500000x128.rank) _ _
      Gen.concatenates_S500000x64_S500000x64_S500000x128_d1 (ix2 e k) rfl rfl (ix2 e (⟨k.val - 64, by omega⟩ : Fin 64))
      (fun b => match b with | ⟨0, _⟩ => fun _ => rfl | ⟨1, _⟩ => fun hne => absurd rfl hne)
      (by show k.val - 64 + 64 = k.val; omega)).trans ?_
    have e1 : idx_main_v130 (ix2 e (⟨k.val - 64, by omega⟩ : Fin 64)) = ix2 e (⟨k.val - 64, by omega⟩ : Fin 128) :=
      funext fun a => match a with | ⟨0, _⟩ => rfl | ⟨1, _⟩ => rfl
    have e2 : idx_main_v131 (ix2 e (⟨k.val - 64, by omega⟩ : Fin 64)) = ix2 e k :=
      funext fun a => match a with
        | ⟨0, _⟩ => rfl
        | ⟨1, _⟩ => Fin.ext (by show 64 + (k.val - 64) = k.val; omega)
    rw [val_main_v141_apply, val_main_v139_apply, val_main_v140_apply, val_main_v130_apply, val_main_v131_apply,
      val_main_v134_apply, val_main_v135_apply, val_main_v133_apply, val_main_v132_apply, val_main_cst_32_apply, e1, e2]
    simp only [Ideal.subf_def, Ideal.mulf_def, Ideal.hostDivf_def, Ideal.hostUnary_cos_def, Ideal.hostUnary_sin_def,
      Ideal.ofBits_def, div_D]

/-- The outgoing direction's unscaled messages. -/
theorem msg_out (x0 : (⟨S100000x128, .f32⟩ : BufTy).Contents (Elt Ideal)) (x1 : (⟨S2x1000000, .i32⟩ : BufTy).Contents (Elt Ideal))
    (x2 : (⟨S1000000, .i32⟩ : BufTy).Contents (Elt Ideal)) (x3 : (⟨S500x64, .f32⟩ : BufTy).Contents (Elt Ideal))
    (x6 : (⟨S128x128, .f32⟩ : BufTy).Contents (Elt Ideal)) (x8 : (⟨S1x64, .f32⟩ : BufTy).Contents (Elt Ideal)) :
    val_main_v143 (F := Ideal) x0 x1 x2 x3 x6 x8
      = rotMat (val_main_v122 (F := Ideal) x0 x1) (val_main_v129 (F := Ideal) x2 x3 x8) x6 := by
  funext i
  obtain ⟨e, q, rfl⟩ : ∃ (e : Fin 500000) (q : Fin 128), i = ix2 e q := ⟨i 0, i 1, eq_ix2 i⟩
  rw [val_main_v143_apply]
  unfold rotMat rowDot
  refine Finset.sum_congr rfl fun k _ => ?_
  have hl : lidx_main_v143 (ix2 e q) k = ix2 e k :=
    funext fun a => match a with | ⟨0, _⟩ => rfl | ⟨1, _⟩ => rfl
  have hr : ridx_main_v143 (ix2 e q) k = ix2 k q :=
    funext fun a => match a with | ⟨0, _⟩ => rfl | ⟨1, _⟩ => rfl
  rw [hl, hr, row_out]

end Cert.ReferenceIdeal.RefValue

end
-- ==== Proof.RefOutput.lean ====
/-
  The reference's combined output: the two aggregated message arrays plus the self-loop message — every entity row
  rotated by the phases of the LAST row of the concatenated relation table, which is the loop relation's one row —
  scaled by one third.
-/
import proofs.«109089_j34394098106413_1_alg».proof.Proof.RefStages
import proofs.«109089_j34394098106413_1_alg».proof.Proof.RotSpec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.ReadP Cert.RotSpec Idealize.ShloMosaic Idealize.ShloMosaic.ValueIdx

/-- Row 500 of the concatenated relation table (500 relation rows, then the loop relation's one row) is the loop
    relation's row: the coordinate on the joined axis is at the first piece's extent, so it falls in the second piece
    at position `500 - 500 = 0`. -/
theorem table_last_row (x3 : (⟨S500x64, .f32⟩ : BufTy).Contents (Elt Ideal)) (x8 : (⟨S1x64, .f32⟩ : BufTy).Contents (Elt Ideal))
    (j : S501x64.Idx) (k : Fin 64) (h0 : (j 0).val = 500) (h1 : (j 1).val = k.val) :
    val_main_v0 (F := Ideal) x3 x8 j = x8 (ix2 0 k) := by
  unfold val_main_v0
  exact concatenate_pair_apply_right (0 : Fin S501x64.rank) x3 x8 Gen.concatenates_S500x64_S1x64_S501x64_d0 j rfl rfl (ix2 0 k)
    (fun b hb => by
      match b with
      | ⟨0, _⟩ => exact absurd rfl hb
      | ⟨1, _⟩ => exact h1.symm)
    (by show 0 + 500 = (j 0).val; omega)

/-- Every entry of the concatenated relation table is real when the entries of both pieces are: a row below 500
    is a row of the relation array, and row 500 is the loop relation's row. -/
theorem table_real (x3 : (⟨S500x64, .f32⟩ : BufTy).Contents (Elt Ideal)) (x8 : (⟨S1x64, .f32⟩ : BufTy).Contents (Elt Ideal))
    (h3 : ∀ i, ∃ r : ℝ, x3 i = (r : EReal)) (h8 : ∀ i, ∃ r : ℝ, x8 i = (r : EReal)) :
    ∀ i, ∃ r : ℝ, val_main_v0 (F := Ideal) x3 x8 i = (r : EReal) := by
  intro i
  have hlt : (i 0).val < 501 := idx2_lt0 i
  by_cases h : (i 0).val < 500
  · have e : val_main_v0 (F := Ideal) x3 x8 i = x3 (ix2 (⟨(i 0).val, h⟩ : Fin 500) (i 1)) := by
      unfold val_main_v0
      exact concatenate_pair_apply_left (0 : Fin S501x64.rank) x3 x8 Gen.concatenates_S500x64_S1x64_S501x64_d0 i rfl
        (ix2 (⟨(i 0).val, h⟩ : Fin 500) (i 1)) (fun b => by
          match b with
          | ⟨0, _⟩ => rfl
          | ⟨1, _⟩ => rfl)
    rw [e]
    exact h3 _
  · rw [table_last_row x3 x8 i (i 1) (by omega) rfl]
    exact h8 _

/-- The phase array of the self-loop: the last table row, sliced out, flattened and repeated on every entity row,
    divided by the constant `D`; entry `(n, k)` is the loop relation's `k`-th entry times `invD`, whatever `n`. -/
theorem loop_phase_at (x3 : (⟨S500x64, .f32⟩ : BufTy).Contents (Elt Ideal)) (x8 : (⟨S1x64, .f32⟩ : BufTy).Contents (Elt Ideal))
    (n : Fin 100000) (k : Fin 64) :
    val_main_v163 (F := Ideal) x3 x8 (ix2 n k) = x8 (ix2 0 k) * invD := by
  rw [val_main_v163_apply, val_main_v159_apply, val_main_v158_apply, val_main_v157_apply, val_main_v162_apply,
    val_main_cst_36_apply, Ideal.hostDivf_def, Ideal.ofBits_def, div_D]
  congr 1
  exact table_last_row x3 x8 _ k rfl (Nat.mod_eq_of_lt k.isLt)

/-- The rotated entity array, entry by entry: columns below 64 come from the first joined piece
    (`re · cos + im · sin`), columns from 64 on from the second (`re · sin − im · cos`), which is `rotRow` of the
    entity's row by the loop phases. -/
theorem rotated_at (x0 : (⟨S100000x128, .f32⟩ : BufTy).Contents (Elt Ideal)) (x3 : (⟨S500x64, .f32⟩ : BufTy).Contents (Elt Ideal))
    (x8 : (⟨S1x64, .f32⟩ : BufTy).Contents (Elt Ideal)) (n : Fin 100000) (k : Fin 128) :
    val_main_v172 (F := Ideal) x0 x3 x8 (ix2 n k) = rotRow (rowOf x0 n) (phaseOf x8 0) k := by
  unfold rotRow
  by_cases h : k.val < 64
  · rw [dif_pos h]
    have e : val_main_v172 (F := Ideal) x0 x3 x8 (ix2 n k) = val_main_v168 (F := Ideal) x0 x3 x8 (ix2 n ⟨k.val, h⟩) := by
      unfold val_main_v172
      exact concatenate_pair_apply_left (1 : Fin S100000x128.rank) _ _ Gen.concatenates_S100000x64_S100000x64_S100000x128_d1
        (ix2 n k) rfl (ix2 n ⟨k.val, h⟩) (fun b => by
          match b with
          | ⟨0, _⟩ => rfl
          | ⟨1, _⟩ => rfl)
    have e0 : idx_main_v160 (ix2 n (⟨k.val, h⟩ : Fin 64)) = ix2 n (⟨k.val, by omega⟩ : Fin 128) := by
      funext a
      match a with
      | ⟨0, _⟩ => rfl
      | ⟨1, _⟩ => rfl
    have e1 : idx_main_v161 (ix2 n (⟨k.val, h⟩ : Fin 64)) = ix2 n (⟨k.val + 64, by omega⟩ : Fin 128) := by
      funext a
      match a with
      | ⟨0, _⟩ => rfl
      | ⟨1, _⟩ => exact Fin.ext (Nat.add_comm 64 k.val)
    rw [e, val_main_v168_apply, val_main_v166_apply, val_main_v167_apply, val_main_v164_apply, val_main_v165_apply,
      loop_phase_at, val_main_v160_apply, val_main_v161_apply, e0, e1]
    rfl
  · rw [dif_neg h]
    have hk : k.val - 64 < 64 := by have := k.isLt; omega
    have e : val_main_v172 (F := Ideal) x0 x3 x8 (ix2 n k) = val_main_v171 (F := Ideal) x0 x3 x8 (ix2 n ⟨k.val - 64, hk⟩) := by
      unfold val_main_v172
      exact concatenate_pair_apply_right (1 : Fin S100000x128.rank) _ _ Gen.concatenates_S100000x64_S100000x64_S100000x128_d1
        (ix2 n k) rfl rfl (ix2 n ⟨k.val - 64, hk⟩) (fun b hb => by
          match b with
          | ⟨0, _⟩ => rfl
          | ⟨1, _⟩ => exact absurd rfl hb)
        (by show (k.val - 64) + 64 = k.val; omega)
    have e0 : idx_main_v160 (ix2 n (⟨k.val - 64, hk⟩ : Fin 64)) = ix2 n (⟨k.val - 64, by omega⟩ : Fin 128) := by
      funext a
      match a with
      | ⟨0, _⟩ => rfl
      | ⟨1, _⟩ => rfl
    have e1 : idx_main_v161 (ix2 n (⟨k.val - 64, hk⟩ : Fin 64)) = ix2 n k := by
      funext a
      match a with
      | ⟨0, _⟩ => rfl
      | ⟨1, _⟩ => exact Fin.ext (by show 64 + (k.val - 64) = k.val; omega)
    rw [e, val_main_v171_apply, val_main_v169_apply, val_main_v170_apply, val_main_v164_apply, val_main_v165_apply,
      loop_phase_at, val_main_v160_apply, val_main_v161_apply, e0, e1]
    rfl

/-- The self-loop message: the rotated entity array times the loop weight matrix, one entry. -/
theorem loop_message_at (x0 : (⟨S100000x128, .f32⟩ : BufTy).Contents (Elt Ideal)) (x3 : (⟨S500x64, .f32⟩ : BufTy).Contents (Elt Ideal))
    (x4 : (⟨S128x128, .f32⟩ : BufTy).Contents (Elt Ideal)) (x8 : (⟨S1x64, .f32⟩ : BufTy).Contents (Elt Ideal))
    (n : Fin 100000) (q : Fin 128) :
    val_main_v173 (F := Ideal) x0 x3 x4 x8 (ix2 n q) = rowDot (rotRow (rowOf x0 n) (phaseOf x8 0)) (matOf x4) q := by
  rw [val_main_v173_apply]
  unfold rowDot
  refine Finset.sum_congr rfl fun k _ => ?_
  have el : lidx_main_v173 (ix2 n q) k = ix2 n k := by
    funext a
    match a with
    | ⟨0, _⟩ => rfl
    | ⟨1, _⟩ => rfl
  have er : ridx_main_v173 (ix2 n q) k = ix2 k q := by
    funext a
    match a with
    | ⟨0, _⟩ => rfl
    | ⟨1, _⟩ => rfl
  rw [el, er, rotated_at]

/-- The reference's first result as the combination of its two aggregated arrays and the self-loop message. -/
theorem out_eq (x0 : (⟨S100000x128, .f32⟩ : BufTy).Contents (Elt Ideal)) (x1 : (⟨S2x1000000, .i32⟩ : BufTy).Contents (Elt Ideal))
    (x2 : (⟨S1000000, .i32⟩ : BufTy).Contents (Elt Ideal)) (x3 : (⟨S500x64, .f32⟩ : BufTy).Contents (Elt Ideal))
    (x4 x5 x6 : (⟨S128x128, .f32⟩ : BufTy).Contents (Elt Ideal)) (x8 : (⟨S1x64, .f32⟩ : BufTy).Contents (Elt Ideal)) :
    val_main_v177 (F := Ideal) x0 x1 x2 x3 x4 x5 x6 x8
      = loopOut x0 (val_main_v80 (F := Ideal) x0 x1 x2 x3 x5 x8) (val_main_v156 (F := Ideal) x0 x1 x2 x3 x6 x8) x8 x4 := by
  funext i
  obtain ⟨n, q, rfl⟩ : ∃ (n : Fin 100000) (q : Fin 128), i = ix2 n q := ⟨i 0, i 1, eq_ix2 i⟩
  rw [val_main_v177_apply, val_main_v175_apply, val_main_v174_apply, val_main_v176_apply, val_main_cst_37_apply,
    loop_message_at]
  rfl

end Cert.ReferenceIdeal.RefValue

end
-- ==== Proof.Finite.lean ====
/-
  Which numbers are reals. The precondition makes every float argument entry a real. The degree normalisation is
  real whatever the integer inputs are: a degree is zero plus a finite sum of ones, its power with exponent -1/2 is a
  real power of reals, the guarded choice takes that or zero, a gather picks entries of it, and the product of two
  reals is real.
-/
import proofs.«109089_j34394098106413_1_alg».proof.Proof.RefStages
import proofs.«109089_j34394098106413_1_alg».proof.Proof.RotSpec
import proofs.«109089_j34394098106413_1_alg».proof.Pre_finite_inputs
import proofs.«109089_j34394098106413_1_alg».proof.Proof.Gen.Pre_finite_inputs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.ReduceAll

noncomputable section

namespace Cert.ReferenceIdeal.RefValue

open Cert.ReferenceIdeal Cert.ReferenceIdeal.ReadP Cert.RotSpec Idealize.ShloMosaic Idealize.ShloMosaic.ValueIdx

/-- The real power of two reals is a real. -/
theorem pow_coe (x y : ℝ) : Ideal.pow (x : EReal) (y : EReal) = ((Real.rpow x y : ℝ) : EReal) := rfl

/-- An accumulating scatter of reals into reals is real at every entry: an entry plus a finite sum of updates. -/
theorem scatterAdd_real {s si su : Shape} (d : ScatterDims s si su) {w : Nat} (x : s.Idx → EReal) (idx : IVec si w)
    (u : su.Idx → EReal) (hx : ∀ i, ∃ r : ℝ, x i = (r : EReal)) (hu : ∀ j, ∃ r : ℝ, u j = (r : EReal)) (i : s.Idx) :
    ∃ r : ℝ, Ideal.hostScatterAdd d x idx u i = (r : EReal) := by
  choose fx hfx using hx
  choose fu hfu using hu
  unfold Ideal.hostScatterAdd
  rw [hfx i, Finset.sum_congr rfl (fun j _ => hfu j), coe_sum, ← EReal.coe_add]
  exact ⟨_, rfl⟩

/-- A guarded choice between two reals is a real, whatever the guard. -/
theorem select_real (c : BitVec 1) (a b : EReal) (ha : ∃ r : ℝ, a = (r : EReal)) (hb : ∃ r : ℝ, b = (r : EReal)) :
    ∃ r : ℝ, Scalar.select c a b = (r : EReal) := by
  by_cases h : c = 1#1
  · rw [h, select_one]; exact ha
  · rw [eq_zero_of_ne_one h, select_zero]; exact hb

/-! ### The incoming direction -/

theorem v9_val (i : S100000.Idx) : val_main_v9 (F := Ideal) i = ((0 : ℝ) : EReal) := by
  rw [val_main_v9_apply, val_main_cst_apply, Ideal.ofBits_def, ofBits_zero]

theorem v16_val (i : S500000.Idx) : val_main_v16 (F := Ideal) i = ((1 : ℝ) : EReal) := by
  rw [val_main_v16_apply, val_main_cst_1_apply, Ideal.ofBits_def, ofBits_one]

theorem v20_val (i : S100000.Idx) : val_main_v20 (F := Ideal) i = ((-(1 / 2) : ℝ) : EReal) := by
  rw [val_main_v20_apply, val_main_cst_3_apply, Ideal.ofBits_def, ofBits_neg_half]

theorem call0_v1_val (i : S100000.Idx) : val_main_call0_v1 (F := Ideal) i = ((0 : ℝ) : EReal) := by
  rw [val_main_call0_v1_apply, val_main_call0_v0_apply, val_main_cst_4_apply, Ideal.ofBits_def, ofBits_zero]

/-- A degree — zero plus a finite sum of ones — is a real. -/
theorem v17_real (x1 : (⟨S2x1000000, .i32⟩ : BufTy).Contents (Elt Ideal)) (i : S100000.Idx) :
    ∃ r : ℝ, val_main_v17 (F := Ideal) x1 i = (r : EReal) := by
  unfold val_main_v17 Host.scatterAdd
  rw [Ideal.hostScatterAdd_def]
  exact scatterAdd_real _ _ _ _ (fun i => ⟨0, v9_val i⟩) (fun j => ⟨1, v16_val j⟩) i

/-- Its power with exponent -1/2 is a real power of reals. -/
theorem v21_real (x1 : (⟨S2x1000000, .i32⟩ : BufTy).Contents (Elt Ideal)) (i : S100000.Idx) :
    ∃ r : ℝ, val_main_v21 (F := Ideal) x1 i = (r : EReal) := by
  obtain ⟨r, hr⟩ := v17_real x1 i
  rw [val_main_v21_apply, Ideal.hostPowf_def, hr, v20_val, pow_coe]
  exact ⟨_, rfl⟩

/-- The guarded choice takes that power or zero. -/
theorem v22_real (x1 : (⟨S2x1000000, .i32⟩ : BufTy).Contents (Elt Ideal)) (i : S100000.Idx) :
    ∃ r : ℝ, val_main_v22 (F := Ideal) x1 i = (r : EReal) := by
  rw [val_main_v22_apply]
  exact select_real _ _ _ (v21_real x1 i) ⟨0, call0_v1_val i⟩

/-- The incoming direction's degree normalisation is real at every edge. -/
theorem norm_in_real (x1 : (⟨S2x1000000, .i32⟩ : BufTy).Contents (Elt Ideal)) (i : S500000.Idx) :
    ∃ r : ℝ, val_main_v37 (F := Ideal) x1 i = (r : EReal) := by
  obtain ⟨a, ha⟩ : ∃ r : ℝ, val_main_v29 (F := Ideal) x1 i = (r : EReal) := by
    unfold val_main_v29 Host.gather
    exact v22_real x1 _
  obtain ⟨b, hb⟩ : ∃ r : ℝ, val_main_v36 (F := Ideal) x1 i = (r : EReal) := by
    unfold val_main_v36 Host.gather
    exact v22_real x1 _
  rw [val_main_v37_apply, Ideal.mulf_def, ha, hb, ← EReal.coe_mul]
  exact ⟨_, rfl⟩

/-! ### The outgoing direction -/

theorem v85_val (i : S100000.Idx) : val_main_v85 (F := Ideal) i = ((0 : ℝ) : EReal) := by
  rw [val_main_v85_apply, val_main_cst_17_apply, Ideal.ofBits_def, ofBits_zero]

theorem v92_val (i : S500000.Idx) : val_main_v92 (F := Ideal) i = ((1 : ℝ) : EReal) := by
  rw [val_main_v92_apply, val_main_cst_20_apply, Ideal.ofBits_def, ofBits_one]

theorem v96_val (i : S100000.Idx) : val_main_v96 (F := Ideal) i = ((-(1 / 2) : ℝ) : EReal) := by
  rw [val_main_v96_apply, val_main_cst_22_apply, Ideal.ofBits_def, ofBits_neg_half]

theorem call1_v1_val (i : S100000.Idx) : val_main_call1_v1 (F := Ideal) i = ((0 : ℝ) : EReal) := by
  rw [val_main_call1_v1_apply, val_main_call1_v0_apply, val_main_cst_23_apply, Ideal.ofBits_def, ofBits_zero]

/-- A degree — zero plus a finite sum of ones — is a real. -/
theorem v93_real (x1 : (⟨S2x1000000, .i32⟩ : BufTy).Contents (Elt Ideal)) (i : S100000.Idx) :
    ∃ r : ℝ, val_main_v93 (F := Ideal) x1 i = (r : EReal) := by
  unfold val_main_v93 Host.scatterAdd
  rw [Ideal.hostScatterAdd_def]
  exact scatterAdd_real _ _ _ _ (fun i => ⟨0, v85_val i⟩) (fun j => ⟨1, v92_val j⟩) i

/-- Its power with exponent -1/2 is a real power of reals. -/
theorem v97_real (x1 : (⟨S2x1000000, .i32⟩ : BufTy).Contents (Elt Ideal)) (i : S100000.Idx) :
    ∃ r : ℝ, val_main_v97 (F := Ideal) x1 i = (r : EReal) := by
  obtain ⟨r, hr⟩ := v93_real x1 i
  rw [val_main_v97_apply, Ideal.hostPowf_def, hr, v96_val, pow_coe]
  exact ⟨_, rfl⟩

/-- The guarded choice takes that power or zero. -/
theorem v98_real (x1 : (⟨S2x1000000, .i32⟩ : BufTy).Contents (Elt Ideal)) (i : S100000.Idx) :
    ∃ r : ℝ, val_main_v98 (F := Ideal) x1 i = (r : EReal) := by
  rw [val_main_v98_apply]
  exact select_real _ _ _ (v97_real x1 i) ⟨0, call1_v1_val i⟩

/-- The outgoing direction's degree normalisation is real at every edge. -/
theorem norm_out_real (x1 : (⟨S2x1000000, .i32⟩ : BufTy).Contents (Elt Ideal)) (i : S500000.Idx) :
    ∃ r : ℝ, val_main_v113 (F := Ideal) x1 i = (r : EReal) := by
  obtain ⟨a, ha⟩ : ∃ r : ℝ, val_main_v105 (F := Ideal) x1 i = (r : EReal) := by
    unfold val_main_v105 Host.gather
    exact v98_real x1 _
  obtain ⟨b, hb⟩ : ∃ r : ℝ, val_main_v112 (F := Ideal) x1 i = (r : EReal) := by
    unfold val_main_v112 Host.gather
    exact v98_real x1 _
  rw [val_main_v113_apply, Ideal.mulf_def, ha, hb, ← EReal.coe_mul]
  exact ⟨_, rfl⟩

/-! ### The precondition read back -/

/-- A rank-0 shape has one index. -/
instance : Subsingleton Cert.Pre_finite_inputs.S_.Idx := ⟨fun a b => funext fun d => d.elim0⟩

/-- A truth value's bit is 1 exactly when it is true. -/
theorem ofBool_one (b : Bool) : BitVec.ofBool b = 1#1 ↔ b = true := by cases b <;> decide

/-- The word 0x7F800000 denotes +∞. -/
theorem ofBits_inf : Ideal.ofBits .f32 0x7F800000#32 = (⊤ : EReal) := by
  simp [Ideal.ofBits, Ideal.ieee]

/-- An extended real whose absolute value lies below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- Where the comparison |a| < +∞ holds at an entry, that entry of a is a real. -/
theorem real_of_cmp {s : Shape} (bc : Cert.Pre_finite_inputs.S_.BroadcastsInDim s (![] : Fin 0 → Fin s.rank))
    (a : FVec Ideal s .f32) (i : s.Idx)
    (h : cmpf .olt (Host.absf a)
      (broadcastInDim s ![] bc (constant (F := Ideal) Cert.Pre_finite_inputs.S_ .f32 0x7F800000#32)) i = 1#1) :
    ∃ r : ℝ, a i = (r : EReal) := by
  have hb : broadcastInDim s ![] bc (constant (F := Ideal) Cert.Pre_finite_inputs.S_ .f32 0x7F800000#32) i
      = (⊤ : EReal) := by
    rw [broadcastInDim_apply _ bc _ i (fun d => d.elim0) (fun d => d.elim0), constant_apply, ofBits_inf]
  have h' : BitVec.ofBool (decide (max (a i) (-(a i)) < (⊤ : EReal))) = 1#1 := by
    rw [← hb]; exact h
  rw [ofBool_one, decide_eq_true_eq] at h'
  exact real_of_abs_lt_top _ h'

/-- Under the precondition every entry of the entity array, the relation table, the three 128×128 weights and the
    loop relation is a real. -/
theorem pre_reals [Cert.Pre_finite_inputs.Facts]
    (a0 : FVec Ideal Cert.Pre_finite_inputs.S100000x128 .f32) (a1 : IVec Cert.Pre_finite_inputs.S2x1000000 32)
    (a2 : IVec Cert.Pre_finite_inputs.S1000000 32) (a3 : FVec Ideal Cert.Pre_finite_inputs.S500x64 .f32)
    (a4 a5 a6 : FVec Ideal Cert.Pre_finite_inputs.S128x128 .f32) (a7 : FVec Ideal Cert.Pre_finite_inputs.S64x64 .f32)
    (a8 : FVec Ideal Cert.Pre_finite_inputs.S1x64 .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a8 i = (r : EReal)) := by
  have e := congrFun h ValueIdx.ix0
  dsimp only [Cert.Pre_finite_inputs.fn, Cert.Pre_finite_inputs.fn_part1] at e
  simp only [andi, IntOp.andi_eq_one] at e
  obtain ⟨⟨⟨⟨⟨⟨h0, h3⟩, h4⟩, h5⟩, h6⟩, -⟩, h8⟩ := e
  exact ⟨fun i => real_of_cmp _ a0 i (Host.reduce_andi_all _ _ _ _ _ h0 i),
    fun i => real_of_cmp _ a3 i (Host.reduce_andi_all _ _ _ _ _ h3 i),
    fun i => real_of_cmp _ a4 i (Host.reduce_andi_all _ _ _ _ _ h4 i),
    fun i => real_of_cmp _ a5 i (Host.reduce_andi_all _ _ _ _ _ h5 i),
    fun i => real_of_cmp _ a6 i (Host.reduce_andi_all _ _ _ _ _ h6 i),
    fun i => real_of_cmp _ a8 i (Host.reduce_andi_all _ _ _ _ _ h8 i)⟩

end Cert.ReferenceIdeal.RefValue

end
-- ==== Proof.Bridge.lean ====
/-
  The two programs' first results are one function of the arguments.

  Per edge, the kernel rotates and multiplies the gathered entity row ALREADY scaled by the edge's degree
  normalisation n, the reference scales the rotated-and-multiplied row afterwards. The rotation and the matrix
  product are linear in the row, and every number involved is a real: the entity rows, relation rows and weights by
  the precondition (a gathered entry is an entry of the array it is gathered from), the normalisation whatever the
  edge list holds. So the two message arrays are equal (`RotSpec.rotMat_scale`), hence so are their scatter-adds onto
  zeros at the same row indices, and the combined outputs `loopOut` of equal arrays are equal.
-/
import proofs.«109089_j34394098106413_1_alg».proof.Proof.RefMessages
import proofs.«109089_j34394098106413_1_alg».proof.Proof.RefOutput
import proofs.«109089_j34394098106413_1_alg».proof.Proof.Finite

noncomputable section

namespace Cert.ReferenceIdeal.RefValue

open Cert.ReferenceIdeal Cert.ReferenceIdeal.ReadP Cert.RotSpec Idealize.ShloMosaic Idealize.ShloMosaic.ValueIdx

/-- The incoming direction's broadcast normalisation is constant along a row: the edge's normalisation. -/
theorem norm_in_bcast (x1 : (⟨Cert.ReferenceIdeal.S2x1000000, .i32⟩ : BufTy).Contents (Elt Ideal)) (e : Fin 500000) (k : Fin 128) :
    val_main_v69 (F := Ideal) x1 (ix2 e k) = val_main_v37 (F := Ideal) x1 (ix1 e) := by
  rw [val_main_v69_apply, val_main_v68_apply]
  exact congrArg _ (funext fun a => match a with | ⟨0, _⟩ => rfl)

/-- The outgoing direction's broadcast normalisation is constant along a row. -/
theorem norm_out_bcast (x1 : (⟨Cert.ReferenceIdeal.S2x1000000, .i32⟩ : BufTy).Contents (Elt Ideal)) (e : Fin 500000) (k : Fin 128) :
    val_main_v145 (F := Ideal) x1 (ix2 e k) = val_main_v113 (F := Ideal) x1 (ix1 e) := by
  rw [val_main_v145_apply, val_main_v144_apply]
  exact congrArg _ (funext fun a => match a with | ⟨0, _⟩ => rfl)

/-- The kernel's incoming messages (rows scaled first) are the reference's (scaled last). -/
theorem msg_in_eq (x0 : (⟨Cert.ReferenceIdeal.S100000x128, .f32⟩ : BufTy).Contents (Elt Ideal)) (x1 : (⟨Cert.ReferenceIdeal.S2x1000000, .i32⟩ : BufTy).Contents (Elt Ideal)) (x2 : (⟨Cert.ReferenceIdeal.S1000000, .i32⟩ : BufTy).Contents (Elt Ideal))
    (x3 : (⟨Cert.ReferenceIdeal.S500x64, .f32⟩ : BufTy).Contents (Elt Ideal)) (x5 : (⟨Cert.ReferenceIdeal.S128x128, .f32⟩ : BufTy).Contents (Elt Ideal)) (x8 : (⟨Cert.ReferenceIdeal.S1x64, .f32⟩ : BufTy).Contents (Elt Ideal))
    (h0 : ∀ i, ∃ r : ℝ, x0 i = (r : EReal)) (h3 : ∀ i, ∃ r : ℝ, x3 i = (r : EReal))
    (h5 : ∀ i, ∃ r : ℝ, x5 i = (r : EReal)) (h8 : ∀ i, ∃ r : ℝ, x8 i = (r : EReal)) :
    rotMat ((mulf (val_main_v46 (F := Ideal) x0 x1) (val_main_v69 (F := Ideal) x1) : FVec Ideal S500000x128 .f32)) (val_main_v53 (F := Ideal) x2 x3 x8) x5
      = val_main_v70 (F := Ideal) x0 x1 x2 x3 x5 x8 := by
  have hs := rotMat_scale (val_main_v46 (F := Ideal) x0 x1) (val_main_v53 (F := Ideal) x2 x3 x8) x5 (val_main_v69 (F := Ideal) x1)
    (fun e => val_main_v37 (F := Ideal) x1 (ix1 e)) (norm_in_bcast x1)
    (fun i => h0 _) (fun i => table_real x3 x8 h3 h8 _) h5 (fun e => norm_in_real x1 _)
  refine hs.trans ?_
  funext i
  rw [val_main_v70_apply, msg_in]
  rfl

/-- The same for the outgoing direction. -/
theorem msg_out_eq (x0 : (⟨Cert.ReferenceIdeal.S100000x128, .f32⟩ : BufTy).Contents (Elt Ideal)) (x1 : (⟨Cert.ReferenceIdeal.S2x1000000, .i32⟩ : BufTy).Contents (Elt Ideal)) (x2 : (⟨Cert.ReferenceIdeal.S1000000, .i32⟩ : BufTy).Contents (Elt Ideal))
    (x3 : (⟨Cert.ReferenceIdeal.S500x64, .f32⟩ : BufTy).Contents (Elt Ideal)) (x6 : (⟨Cert.ReferenceIdeal.S128x128, .f32⟩ : BufTy).Contents (Elt Ideal)) (x8 : (⟨Cert.ReferenceIdeal.S1x64, .f32⟩ : BufTy).Contents (Elt Ideal))
    (h0 : ∀ i, ∃ r : ℝ, x0 i = (r : EReal)) (h3 : ∀ i, ∃ r : ℝ, x3 i = (r : EReal))
    (h6 : ∀ i, ∃ r : ℝ, x6 i = (r : EReal)) (h8 : ∀ i, ∃ r : ℝ, x8 i = (r : EReal)) :
    rotMat ((mulf (val_main_v122 (F := Ideal) x0 x1) (val_main_v145 (F := Ideal) x1) : FVec Ideal S500000x128 .f32)) (val_main_v129 (F := Ideal) x2 x3 x8) x6
      = val_main_v146 (F := Ideal) x0 x1 x2 x3 x6 x8 := by
  have hs := rotMat_scale (val_main_v122 (F := Ideal) x0 x1) (val_main_v129 (F := Ideal) x2 x3 x8) x6 (val_main_v145 (F := Ideal) x1)
    (fun e => val_main_v113 (F := Ideal) x1 (ix1 e)) (norm_out_bcast x1)
    (fun i => h0 _) (fun i => table_real x3 x8 h3 h8 _) h6 (fun e => norm_out_real x1 _)
  refine hs.trans ?_
  funext i
  rw [val_main_v146_apply, msg_out]
  rfl

/-- THE FIRST RESULT: the kernel's combination of its two aggregated arrays is the reference's last stage. -/
theorem first_result (x0 : (⟨Cert.ReferenceIdeal.S100000x128, .f32⟩ : BufTy).Contents (Elt Ideal)) (x1 : (⟨Cert.ReferenceIdeal.S2x1000000, .i32⟩ : BufTy).Contents (Elt Ideal)) (x2 : (⟨Cert.ReferenceIdeal.S1000000, .i32⟩ : BufTy).Contents (Elt Ideal))
    (x3 : (⟨Cert.ReferenceIdeal.S500x64, .f32⟩ : BufTy).Contents (Elt Ideal)) (x4 x5 x6 : (⟨Cert.ReferenceIdeal.S128x128, .f32⟩ : BufTy).Contents (Elt Ideal)) (x8 : (⟨Cert.ReferenceIdeal.S1x64, .f32⟩ : BufTy).Contents (Elt Ideal))
    (h0 : ∀ i, ∃ r : ℝ, x0 i = (r : EReal)) (h3 : ∀ i, ∃ r : ℝ, x3 i = (r : EReal))
    (h5 : ∀ i, ∃ r : ℝ, x5 i = (r : EReal)) (h6 : ∀ i, ∃ r : ℝ, x6 i = (r : EReal)) (h8 : ∀ i, ∃ r : ℝ, x8 i = (r : EReal)) :
    loopOut x0
        ((Host.scatterAdd scatter_S100000x128_S500000x1_S500000x128_1_0_0_1 (val_main_v71 (F := Ideal)) (val_main_v79 (F := Ideal) x1)
          (rotMat ((mulf (val_main_v46 (F := Ideal) x0 x1) (val_main_v69 (F := Ideal) x1) : FVec Ideal S500000x128 .f32)) (val_main_v53 (F := Ideal) x2 x3 x8) x5)) : FVec Ideal S100000x128 .f32)
        ((Host.scatterAdd scatter_S100000x128_S500000x1_S500000x128_1_0_0_1 (val_main_v147 (F := Ideal)) (val_main_v155 (F := Ideal) x1)
          (rotMat ((mulf (val_main_v122 (F := Ideal) x0 x1) (val_main_v145 (F := Ideal) x1) : FVec Ideal S500000x128 .f32)) (val_main_v129 (F := Ideal) x2 x3 x8) x6)) : FVec Ideal S100000x128 .f32)
        x8 x4
      = val_main_v177 (F := Ideal) x0 x1 x2 x3 x4 x5 x6 x8 := by
  rw [out_eq, msg_in_eq x0 x1 x2 x3 x5 x8 h0 h3 h5 h8, msg_out_eq x0 x1 x2 x3 x6 x8 h0 h3 h6 h8]
  rfl

end Cert.ReferenceIdeal.RefValue

end
-- ==== Proof.lean ====
/-
  The relational graph layer: per edge, the source entity's row (128 numbers read as 64 complex numbers) is rotated
  by the phases of the edge's relation row, multiplied by the direction's 128×128 weights and scaled by the
  symmetric degree normalisation of the edge; messages are summed onto their target rows; every entity row gets the
  same rotate-and-multiply with the loop relation's phases and the loop weights; the three sums are averaged. A
  second result is the relation table (with the loop row) times the relation weights, without the loop row.

  The kernel program does the per-edge rotate-and-multiply and the final combination in three tiled kernels and
  scales the gathered row by the normalisation BEFORE the rotation; the reference scales the message AFTER the
  product. The kernels multiply a relation entry by a folded reciprocal where the reference divides by the divisor;
  the certificate names that word as the exact reciprocal of the reference's divisor, so at the ideal instance the
  two phases are one number. With every entity entry, relation entry and weight a real (the precondition) and every
  normalisation a real (a power of a count, or zero), the rotation and the product are linear in the row and the two
  message arrays agree; everything else the two programs do is the same host operation chain on the same arguments.

  Frames: the two kernel programs' by their generated frame certificates; the reference's is its run with the
  results dropped. The idealization's ledger has the named reciprocal at its three sites.
-/
import proofs.«109089_j34394098106413_1_alg».proof.Defs
import proofs.«109089_j34394098106413_1_alg».proof.Proof.Gen.Kernel
import proofs.«109089_j34394098106413_1_alg».proof.Proof.Gen.Kernel.Frame
import proofs.«109089_j34394098106413_1_alg».proof.Proof.Gen.KernelIdeal
import proofs.«109089_j34394098106413_1_alg».proof.Proof.Gen.KernelIdeal.Frame
import proofs.«109089_j34394098106413_1_alg».proof.Proof.Gen.ReferenceIdeal
import proofs.«109089_j34394098106413_1_alg».proof.Proof.Gen.Pre_finite_inputs
import proofs.«109089_j34394098106413_1_alg».proof.Proof.KernelRun
import proofs.«109089_j34394098106413_1_alg».proof.Proof.KernelChain
import proofs.«109089_j34394098106413_1_alg».proof.Proof.EdgeArray
import proofs.«109089_j34394098106413_1_alg».proof.Proof.LoopArray
import proofs.«109089_j34394098106413_1_alg».proof.Proof.RefRun
import proofs.«109089_j34394098106413_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- The ledger's three entries are one statement: the named word denotes the reciprocal `33554432 / 16021061`. -/
theorem preserves : Cert.preserves_Kernel_KernelIdeal :=
  ⟨IdealRules.named_const.statement Cert.KernelIdeal.κ "inv_phase_div" .f32 0x40060A92#32 ((33554432 / 16021061 : ℝ) : EReal) rfl,
   IdealRules.named_const.statement Cert.KernelIdeal.κ "inv_phase_div" .f32 0x40060A92#32 ((33554432 / 16021061 : ℝ) : EReal) rfl,
   IdealRules.named_const.statement Cert.KernelIdeal.κ "inv_phase_div" .f32 0x40060A92#32 ((33554432 / 16021061 : ℝ) : EReal) rfl⟩

/-- Both programs run; the kernel program's results are the last boundary's contents at its two result buffers,
    which the walk back through its regions reads as functions of the arguments, and those functions are the
    reference's two last stages of the same arguments. -/
theorem algebraic : Cert.algebraic_KernelIdeal_ReferenceIdeal := by
  intro m ρ m' ρ' hpre hagree
  refine ⟨fun c => Cert.KernelIdeal.Gen.W10 m ρ c (Proc.devRef .tc Cert.KernelIdeal.main_v131),
    fun c => Cert.KernelIdeal.Gen.W10 m ρ c (Proc.devRef .tc Cert.KernelIdeal.main_v133),
    Cert.KernelIdeal.ValueRun.run_results m ρ, ?_⟩
  refine (θ_run Cert.ReferenceIdeal.defs _ _).mono (fun r h c => ⟨(h c).1.trans ?_, (h c).2.1.trans ?_, (h c).2.2⟩)
    (Cert.ReferenceIdeal.ValueP.run (F := Ideal) m' ρ')
  · obtain ⟨e0, e1, e2, e3, e4, e5, e6, e7, e8⟩ := hagree c
    obtain ⟨r0, r3, r4, r5, r6, r8⟩ := Cert.ReferenceIdeal.RefValue.pre_reals _ _ _ _ _ _ _ _ _ (hpre c)
    beta_reduce
    rw [e0, e1, e2, e3, e4, e5, e6, e8,
      Cert.KernelIdeal.Chain.W10_v131 m ρ Cert.KernelIdeal.ArrayValue.region0_array Cert.KernelIdeal.ArrayValue.region1_array
        Cert.KernelIdeal.ArrayValue.region2_array c]
    exact (Cert.ReferenceIdeal.RefValue.first_result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) r0 r3 r5 r6 r8).symm
  · obtain ⟨e0, e1, e2, e3, e4, e5, e6, e7, e8⟩ := hagree c
    beta_reduce
    rw [e3, e7, e8, Cert.KernelIdeal.Chain.W10_v133 m ρ c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
